-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S2048x1024 : Shape := ⟨2, ![2048, 1024]⟩
abbrev S2048 : Shape := ⟨1, ![2048]⟩
abbrev S4096x2048 : Shape := ⟨2, ![4096, 2048]⟩
abbrev S4096 : Shape := ⟨1, ![4096]⟩
abbrev S2048x4096 : Shape := ⟨2, ![2048, 4096]⟩
abbrev S1024x2048 : Shape := ⟨2, ![1024, 2048]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S2048 : S_.BroadcastsInDim S2048 (![] : Fin 0 → Fin S2048.rank)
  reducesTo_S2048_S_d0 : S2048.ReducesTo [0] S_
  bcast_S_S4096x2048 : S_.BroadcastsInDim S4096x2048 (![] : Fin 0 → Fin S4096x2048.rank)
  reducesTo_S4096x2048_S_d0_1 : S4096x2048.ReducesTo [0, 1] S_
  bcast_S_S4096 : S_.BroadcastsInDim S4096 (![] : Fin 0 → Fin S4096.rank)
  reducesTo_S4096_S_d0 : S4096.ReducesTo [0] S_
  bcast_S_S2048x4096 : S_.BroadcastsInDim S2048x4096 (![] : Fin 0 → Fin S2048x4096.rank)
  reducesTo_S2048x4096_S_d0_1 : S2048x4096.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x2048 .f32) (main_arg8 : FVec F S1024 .f32) (main_v33 : IVec S_ 1) : IVec S_ 1 :=
  let main_v34 : FVec F S1024x2048 .f32 := Host.absf main_arg7
  let main_cst_12 : FVec F S_ .f32 := constant S_ .f32 0x7F800000#32
  let main_v35 : FVec F S1024x2048 .f32 := broadcastInDim S1024x2048 ![] bcast_S_S1024x2048 main_cst_12
  let main_v36 : IVec S1024x2048 1 := cmpf .olt main_v34 main_v35
  let main_c_13 : IVec S_ 1 := constantI S_ 1 1#1
  let main_v37 : IVec S_ 1 := (fun x v => Host.reduce IntOp.andi x v reducesTo_S1024x2048_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S4096 .f32) (main_arg5 : FVec F S2048x4096 .f32) (main_arg6 : FVec F S2048 .f32) (main_arg7 : FVec F S1024x2048 .f32) (main_arg8 : FVec F S1024 .f32) (main_v13 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S2048x4096 .f32 := Host.absf main_arg5
  let main_cst_8 : FVec F S_ .f32 := constant S_ .f32 0x7F800000#32
  let main_v25 : FVec F S2048x4096 .f32 := broadcastInDim S2048x4096 ![] bcast_S_S2048x4096 main_cst_8
  let main_v26 : IVec S2048x4096 1 := cmpf .olt main_v24 main_v25
  let main_c_9 : IVec S_ 1 := constantI S_ 1 1#1
  let main_v27 : IVec S_ 1 := (fun x v => Host.reduce IntOp.andi x v reducesTo_S2048x4096_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_v33

def fn {F : FTy → Type} [FloatOps F] (main_arg0 : FVec F S16384x1024 .f32) (main_arg1 : FVec F S2048x1024 .f32) (main_arg2 : FVec F S2048 .f32) (main_arg3 : FVec F S4096x2048 .f32) (main_arg4 : FVec F S4096 .f32) (main_arg5 : FVec F S2048x4096 .f32) (main_arg6 : FVec F S2048 .f32) (main_arg7 : FVec F S1024x2048 .f32) (main_arg8 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S4096x2048 .f32 := Host.absf main_arg3
  let main_cst_4 : FVec F S_ .f32 := constant S_ .f32 0x7F800000#32
  let main_v15 : FVec F S4096x2048 .f32 := broadcastInDim S4096x2048 ![] bcast_S_S4096x2048 main_cst_4
  let main_v16 : IVec S4096x2048 1 := cmpf .olt main_v14 main_v15
  fn_part1 (F := F) main_arg4 main_arg5 main_arg6 main_arg7 main_arg8 main_v13 main_v16
-- ==== Kernel.lean ====
abbrev S16384x1024 : Shape := ⟨2, ![16384, 1024]⟩
abbrev S2048x1024 : Shape := ⟨2, ![2048, 1024]⟩
abbrev S2048 : Shape := ⟨1, ![2048]⟩
abbrev S4096x2048 : Shape := ⟨2, ![4096, 2048]⟩
abbrev S4096 : Shape := ⟨1, ![4096]⟩
abbrev S2048x4096 : Shape := ⟨2, ![2048, 4096]⟩
abbrev S1024x2048 : Shape := ⟨2, ![1024, 2048]⟩
abbrev S1024 : Shape := ⟨1, ![1024]⟩
abbrev S16384x1 : Shape := ⟨2, ![16384, 1]⟩
abbrev S16384 : Shape := ⟨1, ![16384]⟩
abbrev S_ : Shape := ⟨0, ![]⟩
abbrev S16384x2048 : Shape := ⟨2, ![16384, 2048]⟩
abbrev S512x1024 : Shape := ⟨2, ![512, 1024]⟩
abbrev S512 : Shape := ⟨1, ![512]⟩
abbrev S512x512 : Shape := ⟨2, ![512, 512]⟩
abbrev S1024x512 : Shape := ⟨2, ![1024, 512]⟩
abbrev S1x512 : Shape := ⟨2, ![1, 512]⟩
abbrev S16384x4096 : Shape := ⟨2, ![16384, 4096]⟩
abbrev S512x2048 : Shape := ⟨2, ![512, 2048]⟩
abbrev S2048x512 : Shape := ⟨2, ![2048, 512]⟩
abbrev S512x4096 : Shape := ⟨2, ![512, 4096]⟩
abbrev S4096x512 : Shape := ⟨2, ![4096, 512]⟩
abbrev S512x1 : Shape := ⟨2, ![512, 1]⟩

abbrev nBuf : Space → Nat
  | .hbm => 54
  | .vmem => 34
  | .smem => 0
  | _ => 0

abbrev bufTy : (tb : Table) → Fin (tcTables nBuf tb) → BufTy
  | .hbm, ⟨0, _⟩ => ⟨S16384x1024, .f32⟩
  | .hbm, ⟨1, _⟩ => ⟨S2048x1024, .f32⟩
  | .hbm, ⟨2, _⟩ => ⟨S2048, .f32⟩
  | .hbm, ⟨3, _⟩ => ⟨S4096x2048, .f32⟩
  | .hbm, ⟨4, _⟩ => ⟨S4096, .f32⟩
  | .hbm, ⟨5, _⟩ => ⟨S2048x4096, .f32⟩
  | .hbm, ⟨6, _⟩ => ⟨S2048, .f32⟩
  | .hbm, ⟨7, _⟩ => ⟨S1024x2048, .f32⟩
  | .hbm, ⟨8, _⟩ => ⟨S1024, .f32⟩
  | .hbm, ⟨9, _⟩ => ⟨S16384x1, .f32⟩
  | .hbm, ⟨10, _⟩ => ⟨S16384, .f32⟩
  | .hbm, ⟨11, _⟩ => ⟨S16384x1, .f32⟩
  | .hbm, ⟨12, _⟩ => ⟨S16384, .f32⟩
  | .hbm, ⟨13, _⟩ => ⟨S_, .f32⟩
  | .hbm, ⟨14, _⟩ => ⟨S16384, .f32⟩
  | .hbm, ⟨15, _⟩ => ⟨S16384, .i1⟩
  | .hbm, ⟨16, _⟩ => ⟨S_, .f32⟩
  | .hbm, ⟨17, _⟩ => ⟨S16384, .f32⟩
  | .hbm, ⟨18, _⟩ => ⟨S16384, .f32⟩
  | .hbm, ⟨19, _⟩ => ⟨S16384, .f32⟩
  | .hbm, ⟨20, _⟩ => ⟨S_, .f32⟩
  | .hbm, ⟨21, _⟩ => ⟨S16384, .f32⟩
  | .hbm, ⟨22, _⟩ => ⟨S16384, .f32⟩
  | .hbm, ⟨23, _⟩ => ⟨S_, .f32⟩
  | .hbm, ⟨24, _⟩ => ⟨S16384, .f32⟩
  | .hbm, ⟨25, _⟩ => ⟨S16384, .f32⟩
  | .hbm, ⟨26, _⟩ => ⟨S16384, .f32⟩
  | .hbm, ⟨27, _⟩ => ⟨S_, .f32⟩
  | .hbm, ⟨28, _⟩ => ⟨S16384, .f32⟩
  | .hbm, ⟨29, _⟩ => ⟨S16384, .f32⟩
  | .hbm, ⟨30, _⟩ => ⟨S16384, .f32⟩
  | .hbm, ⟨31, _⟩ => ⟨S_, .f32⟩
  | .hbm, ⟨32, _⟩ => ⟨S16384, .f32⟩
  | .hbm, ⟨33, _⟩ => ⟨S16384, .f32⟩
  | .hbm, ⟨34, _⟩ => ⟨S16384, .f32⟩
  | .hbm, ⟨35, _⟩ => ⟨S_, .f32⟩
  | .hbm, ⟨36, _⟩ => ⟨S_, .f32⟩
  | .hbm, ⟨37, _⟩ => ⟨S16384, .f32⟩
  | .hbm, ⟨38, _⟩ => ⟨S16384, .f32⟩
  | .hbm, ⟨39, _⟩ => ⟨S16384, .f32⟩
  | .hbm, ⟨40, _⟩ => ⟨S_, .f32⟩
  | .hbm, ⟨41, _⟩ => ⟨S_, .f32⟩
  | .hbm, ⟨42, _⟩ => ⟨S16384, .f32⟩
  | .hbm, ⟨43, _⟩ => ⟨S16384, .f32⟩
  | .hbm, ⟨44, _⟩ => ⟨S16384x1, .f32⟩
  | .hbm, ⟨45, _⟩ => ⟨S16384x1024, .bf16⟩
  | .hbm, ⟨46, _⟩ => ⟨S2048x1024, .bf16⟩
  | .hbm, ⟨47, _⟩ => ⟨S4096x2048, .bf16⟩
  | .hbm, ⟨48, _⟩ => ⟨S2048x4096, .bf16⟩
  | .hbm, ⟨49, _⟩ => ⟨S1024x2048, .bf16⟩
  | .hbm, ⟨50, _⟩ => ⟨S16384x2048, .bf16⟩
  | .hbm, ⟨51, _⟩ => ⟨S16384x4096, .bf16⟩
  | .hbm, ⟨52, _⟩ => ⟨S16384x2048, .bf16⟩
  | .hbm, ⟨53, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512, .f32⟩
  | .local _ .vmem, ⟨5, _⟩ => ⟨S512, .f32⟩
  | .local _ .vmem, ⟨6, _⟩ => ⟨S512x512, .bf16⟩
  | .local _ .vmem, ⟨7, _⟩ => ⟨S512x512, .bf16⟩
  | .local _ .vmem, ⟨8, _⟩ => ⟨S512x2048, .bf16⟩
  | .local _ .vmem, ⟨9, _⟩ => ⟨S512x2048, .bf16⟩
  | .local _ .vmem, ⟨10, _⟩ => ⟨S512x2048, .bf16⟩
  | .local _ .vmem, ⟨11, _⟩ => ⟨S512x2048, .bf16⟩
  | .local _ .vmem, ⟨12, _⟩ => ⟨S512, .f32⟩
  | .local _ .vmem, ⟨13, _⟩ => ⟨S512, .f32⟩
  | .local _ .vmem, ⟨14, _⟩ => ⟨S512x512, .bf16⟩
  | .local _ .vmem, ⟨15, _⟩ => ⟨S512x512, .bf16⟩
  | .local _ .vmem, ⟨16, _⟩ => ⟨S512x4096, .bf16⟩
  | .local _ .vmem, ⟨17, _⟩ => ⟨S512x4096, .bf16⟩
  | .local _ .vmem, ⟨18, _⟩ => ⟨S512x4096, .bf16⟩
  | .local _ .vmem, ⟨19, _⟩ => ⟨S512x4096, .bf16⟩
  | .local _ .vmem, ⟨20, _⟩ => ⟨S512, .f32⟩
  | .local _ .vmem, ⟨21, _⟩ => ⟨S512, .f32⟩
  | .local _ .vmem, ⟨22, _⟩ => ⟨S512x512, .bf16⟩
  | .local _ .vmem, ⟨23, _⟩ => ⟨S512x512, .bf16⟩
  | .local _ .vmem, ⟨24, _⟩ => ⟨S512x2048, .bf16⟩
  | .local _ .vmem, ⟨25, _⟩ => ⟨S512x2048, .bf16⟩
  | .local _ .vmem, ⟨26, _⟩ => ⟨S512x2048, .bf16⟩
  | .local _ .vmem, ⟨27, _⟩ => ⟨S512x2048, .bf16⟩
  | .local _ .vmem, ⟨28, _⟩ => ⟨S512, .f32⟩
  | .local _ .vmem, ⟨29, _⟩ => ⟨S512, .f32⟩
  | .local _ .vmem, ⟨30, _⟩ => ⟨S512x1, .f32⟩
  | .local _ .vmem, ⟨31, _⟩ => ⟨S512x1, .f32⟩
  | .local _ .vmem, ⟨32, _⟩ => ⟨S512x512, .f32⟩
  | .local _ .vmem, ⟨33, _⟩ => ⟨S512x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call0_cst : Ref sig .tc := ⟨.hbm, 20, rfl⟩
abbrev main_call0_v0 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_call1_cst : Ref sig .tc := ⟨.hbm, 27, rfl⟩
abbrev main_call1_v0 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_call2_v0 : Ref sig .tc := ⟨.hbm, 36, rfl⟩
abbrev main_call2_v1 : Ref sig .tc := ⟨.hbm, 37, rfl⟩
abbrev main_v18 : Ref sig .tc := ⟨.hbm, 38, rfl⟩
abbrev main_v19 : Ref sig .tc := ⟨.hbm, 39, rfl⟩
abbrev main_cst_4 : Ref sig .tc := ⟨.hbm, 40, rfl⟩
abbrev main_call3_v0 : Ref sig .tc := ⟨.hbm, 41, rfl⟩
abbrev main_call3_v1 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg3_1 : Ref sig .tc := ⟨.vmem, 31, rfl⟩
abbrev cc3_stg4_0 : Ref sig .tc := ⟨.vmem, 32, rfl⟩
abbrev cc3_stg4_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem3_1 : DmaSem sig := 31
abbrev cc3_sem4_0 : DmaSem sig := 32
abbrev cc3_sem4_1 : DmaSem sig := 33

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![8, 32], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  ![arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S512x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![4, 32], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 1 → Nat :=
  let arg0 : BitVec 32 := BitVec.ofNat 32 (i 0).val
  let arg1 : BitVec 32 := BitVec.ofNat 32 (i 1).val
  let c0_i32 : BitVec 32 := 0#32
  ![arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S512x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S512x4096 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S512x512 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨2, ![2, 32], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_2 (i : grid3.Coords) : Fin 1 → Nat :=
  let arg0 : BitVec 32 := BitVec.ofNat 32 (i 0).val
  let arg1 : BitVec 32 := BitVec.ofNat 32 (i 1).val
  let c0_i32 : BitVec 32 := 0#32
  ![arg0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 2 → Memref sig .tc .vmem S512x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S512x2048 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S512x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![false, true]

abbrev stage3_4 : Fin 2 → Memref sig .tc .vmem S512x512 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

class Facts₀ : Prop where
  slices_S16384x1024_S16384x1_0_0 : S16384x1024.Slices ![0, 0] S16384x1
  shapeCasts_S16384x1_S16384 : S16384x1.ShapeCasts S16384
  slices_S16384x1024_S16384x1_0_1 : S16384x1024.Slices ![0, 1] S16384x1
  bcast_S_S16384 : S_.BroadcastsInDim S16384 (![] : Fin 0 → Fin S16384.rank)
  bcast_S16384_S16384x1_0 : S16384.BroadcastsInDim S16384x1 (![0] : Fin 1 → Fin S16384x1.rank)
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  transposes_S512x1024_p1_0_S1024x512 : S512x1024.Transposes [1, 0] S1024x512
  inb_S512_S512_0 : ∀ a, (![0] : Fin 1 → Nat) a + S512.size a ≤ S512.size a
  h_S512 : 0 < S512.numel
  shapeCasts_S512_S1x512 : S512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  packedbf16_S512x512_S512x512_0_0 : (Rect.unit (s := S512x512) ![0, 0] S512x512.size inb_S512x512_S512x512_0_0).PackedRows (EltTy.packing .bf16)
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  transposes_S512x2048_p1_0_S2048x512 : S512x2048.Transposes [1, 0] S2048x512
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  transposes_S512x4096_p1_0_S4096x512 : S512x4096.Transposes [1, 0] S4096x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x512 : S512x1.Broadcasts S512x512
  dot_S512x1024_S1024x512_S512x512_1_0_0_1_n_n_wf : DotDims.WF S512x1024 S1024x512 S512x512 [1] [0] [0] [1] [] []
  dot_S512x2048_S2048x512_S512x512_1_0_0_1_n_n_wf : DotDims.WF S512x2048 S2048x512 S512x512 [1] [0] [0] [1] [] []
  dot_S512x4096_S4096x512_S512x512_1_0_0_1_n_n_wf : DotDims.WF S512x4096 S4096x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .bf16 = 32 ∨ (Rect.block (s := S16384x1024) S512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S2048x1024.size a
  hwx0_1 : ∀ i : grid0.Coords, EltTy.bits .bf16 = 32 ∨ (Rect.block (s := S2048x1024) S512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S2048.size a
  hwx0_2 : ∀ i : grid0.Coords, EltTy.bits .f32 = 32 ∨ (Rect.block (s := S2048) S512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S16384x2048.size a
  hwx0_3 : ∀ i : grid0.Coords, EltTy.bits .bf16 = 32 ∨ (Rect.block (s := S16384x2048) S512x512.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S16384x2048.size a
  hwx1_0 : ∀ i : grid1.Coords, EltTy.bits .bf16 = 32 ∨ (Rect.block (s := S16384x2048) S512x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x2048.size a ≤ S4096x2048.size a
  hwx1_1 : ∀ i : grid1.Coords, EltTy.bits .bf16 = 32 ∨ (Rect.block (s := S4096x2048) S512x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512.size a ≤ S4096.size a
  hwx1_2 : ∀ i : grid1.Coords, EltTy.bits .f32 = 32 ∨ (Rect.block (s := S4096) S512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S16384x4096.size a
  hwx1_3 : ∀ i : grid1.Coords, EltTy.bits .bf16 = 32 ∨ (Rect.block (s := S16384x4096) S512x512.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x4096.size a ≤ S16384x4096.size a
  hwx2_0 : ∀ i : grid2.Coords, EltTy.bits .bf16 = 32 ∨ (Rect.block (s := S16384x4096) S512x4096.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x4096.size a ≤ S2048x4096.size a
  hwx2_1 : ∀ i : grid2.Coords, EltTy.bits .bf16 = 32 ∨ (Rect.block (s := S2048x4096) S512x4096.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512.size a ≤ S2048.size a
  hwx2_2 : ∀ i : grid2.Coords, EltTy.bits .f32 = 32 ∨ (Rect.block (s := S2048) S512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x512.size a ≤ S16384x2048.size a
  hwx2_3 : ∀ i : grid2.Coords, EltTy.bits .bf16 = 32 ∨ (Rect.block (s := S16384x2048) S512x512.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x2048.size a ≤ S16384x2048.size a
  hwx3_0 : ∀ i : grid3.Coords, EltTy.bits .bf16 = 32 ∨ (Rect.block (s := S16384x2048) S512x2048.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S512x2048.size a ≤ S1024x2048.size a
  hwx3_1 : ∀ i : grid3.Coords, EltTy.bits .bf16 = 32 ∨ (Rect.block (s := S1024x2048) S512x2048.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S512.size a ≤ S1024.size a
  hwx3_2 : ∀ i : grid3.Coords, EltTy.bits .f32 = 32 ∨ (Rect.block (s := S1024) S512.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S512x1.size a ≤ S16384x1.size a
  hwx3_3 : ∀ i : grid3.Coords, EltTy.bits .f32 = 32 ∨ (Rect.block (s := S16384x1) S512x1.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S512x512.size a ≤ S16384x1024.size a
  hwx3_4 : ∀ i : grid3.Coords, EltTy.bits .f32 = 32 ∨ (Rect.block (s := S16384x1024) S512x512.size (cc3_transform_4 i) (hinb3_4 i)).WholeWords (EltTy.packing .f32)

variable [Facts₀]

def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf
def dot_S512x4096_S4096x512_S512x512_1_0_0_1_n_n : DotDims S512x4096 S4096x512 S512x512 where
  lhsContracting := [1]
  rhsContracting := [0]
  lhsNonContracting := [0]
  rhsNonContracting := [1]
  lhsBatch := []
  rhsBatch := []
  wf := dot_S512x4096_S4096x512_S512x512_1_0_0_1_n_n_wf

abbrev win0_0 : Pipeline.Window sig grid0 :=
  Pipeline.Window.ofSpec (Memref.whole main_v22) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v27) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S512x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v28) S512x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v28) S512x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25) S512x4096.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v29) S512x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v29) S512x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v26) S512x2048.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S512.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v21) S512x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v30) S512x512.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S16384x1024 : Shape := ⟨2, ![16384, 1024]⟩
abbrev S2048x1024 : Shape := ⟨2, ![2048, 1024]⟩
abbrev S2048 : Shape := ⟨1, ![2048]⟩
abbrev S4096x2048 : Shape := ⟨2, ![4096, 2048]⟩
abbrev S4096 : Shape := ⟨1, ![4096]⟩
abbrev S2048x4096 : Shape := ⟨2, ![2048, 4096]⟩
abbrev S1024x2048 : Shape := ⟨2, ![1024, 2048]⟩
abbrev S1024 : Shape := ⟨1, ![1024]⟩
abbrev S16384x1 : Shape := ⟨2, ![16384, 1]⟩
abbrev S16384 : Shape := ⟨1, ![16384]⟩
abbrev S_ : Shape := ⟨0, ![]⟩
abbrev S16384x2048 : Shape := ⟨2, ![16384, 2048]⟩
abbrev S1x2048 : Shape := ⟨2, ![1, 2048]⟩
abbrev S16384x4096 : Shape := ⟨2, ![16384, 4096]⟩
abbrev S1x4096 : Shape := ⟨2, ![1, 4096]⟩
abbrev S1x1024 : Shape := ⟨2, ![1, 1024]⟩

abbrev nBuf : Space → Nat
  | .hbm => 71
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2048x1024, .f32⟩
  | .hbm, ⟨2, _⟩ => ⟨S2048, .f32⟩
  | .hbm, ⟨3, _⟩ => ⟨S4096x2048, .f32⟩
  | .hbm, ⟨4, _⟩ => ⟨S4096, .f32⟩
  | .hbm, ⟨5, _⟩ => ⟨S2048x4096, .f32⟩
  | .hbm, ⟨6, _⟩ => ⟨S2048, .f32⟩
  | .hbm, ⟨7, _⟩ => ⟨S1024x2048, .f32⟩
  | .hbm, ⟨8, _⟩ => ⟨S1024, .f32⟩
  | .hbm, ⟨9, _⟩ => ⟨S16384x1, .f32⟩
  | .hbm, ⟨10, _⟩ => ⟨S16384, .f32⟩
  | .hbm, ⟨11, _⟩ => ⟨S16384x1, .f32⟩
  | .hbm, ⟨12, _⟩ => ⟨S16384, .f32⟩
  | .hbm, ⟨13, _⟩ => ⟨S_, .f32⟩
  | .hbm, ⟨14, _⟩ => ⟨S16384, .f32⟩
  | .hbm, ⟨15, _⟩ => ⟨S16384, .i1⟩
  | .hbm, ⟨16, _⟩ => ⟨S_, .f32⟩
  | .hbm, ⟨17, _⟩ => ⟨S16384, .f32⟩
  | .hbm, ⟨18, _⟩ => ⟨S16384, .f32⟩
  | .hbm, ⟨19, _⟩ => ⟨S16384, .f32⟩
  | .hbm, ⟨20, _⟩ => ⟨S_, .f32⟩
  | .hbm, ⟨21, _⟩ => ⟨S16384, .f32⟩
  | .hbm, ⟨22, _⟩ => ⟨S16384, .f32⟩
  | .hbm, ⟨23, _⟩ => ⟨S_, .f32⟩
  | .hbm, ⟨24, _⟩ => ⟨S16384, .f32⟩
  | .hbm, ⟨25, _⟩ => ⟨S16384, .f32⟩
  | .hbm, ⟨26, _⟩ => ⟨S16384, .f32⟩
  | .hbm, ⟨27, _⟩ => ⟨S_, .f32⟩
  | .hbm, ⟨28, _⟩ => ⟨S16384, .f32⟩
  | .hbm, ⟨29, _⟩ => ⟨S16384, .f32⟩
  | .hbm, ⟨30, _⟩ => ⟨S16384, .f32⟩
  | .hbm, ⟨31, _⟩ => ⟨S_, .f32⟩
  | .hbm, ⟨32, _⟩ => ⟨S16384, .f32⟩
  | .hbm, ⟨33, _⟩ => ⟨S16384, .f32⟩
  | .hbm, ⟨34, _⟩ => ⟨S16384, .f32⟩
  | .hbm, ⟨35, _⟩ => ⟨S_, .f32⟩
  | .hbm, ⟨36, _⟩ => ⟨S_, .f32⟩
  | .hbm, ⟨37, _⟩ => ⟨S16384, .f32⟩
  | .hbm, ⟨38, _⟩ => ⟨S16384, .f32⟩
  | .hbm, ⟨39, _⟩ => ⟨S16384, .f32⟩
  | .hbm, ⟨40, _⟩ => ⟨S_, .f32⟩
  | .hbm, ⟨41, _⟩ => ⟨S_, .f32⟩
  | .hbm, ⟨42, _⟩ => ⟨S16384, .f32⟩
  | .hbm, ⟨43, _⟩ => ⟨S16384, .f32⟩
  | .hbm, ⟨44, _⟩ => ⟨S16384x1, .f32⟩
  | .hbm, ⟨45, _⟩ => ⟨S1024x2048, .f32⟩
  | .hbm, ⟨46, _⟩ => ⟨S16384x2048, .f32⟩
  | .hbm, ⟨47, _⟩ => ⟨S1x2048, .f32⟩
  | .hbm, ⟨48, _⟩ => ⟨S16384x2048, .f32⟩
  | .hbm, ⟨49, _⟩ => ⟨S16384x2048, .f32⟩
  | .hbm, ⟨50, _⟩ => ⟨S16384x2048, .f32⟩
  | .hbm, ⟨51, _⟩ => ⟨S2048x4096, .f32⟩
  | .hbm, ⟨52, _⟩ => ⟨S16384x4096, .f32⟩
  | .hbm, ⟨53, _⟩ => ⟨S1x4096, .f32⟩
  | .hbm, ⟨54, _⟩ => ⟨S16384x4096, .f32⟩
  | .hbm, ⟨55, _⟩ => ⟨S16384x4096, .f32⟩
  | .hbm, ⟨56, _⟩ => ⟨S16384x4096, .f32⟩
  | .hbm, ⟨57, _⟩ => ⟨S4096x2048, .f32⟩
  | .hbm, ⟨58, _⟩ => ⟨S16384x2048, .f32⟩
  | .hbm, ⟨59, _⟩ => ⟨S1x2048, .f32⟩
  | .hbm, ⟨60, _⟩ => ⟨S16384x2048, .f32⟩
  | .hbm, ⟨61, _⟩ => ⟨S16384x2048, .f32⟩
  | .hbm, ⟨62, _⟩ => ⟨S16384x2048, .f32⟩
  | .hbm, ⟨63, _⟩ => ⟨S2048x1024, .f32⟩
  | .hbm, ⟨64, _⟩ => ⟨S16384x1024, .f32⟩
  | .hbm, ⟨65, _⟩ => ⟨S1x1024, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S16384x1024, .f32⟩
  | .hbm, ⟨70, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call0_cst : Ref sig .tc := ⟨.hbm, 20, rfl⟩
abbrev main_call0_v0 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_call1_cst : Ref sig .tc := ⟨.hbm, 27, rfl⟩
abbrev main_call1_v0 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_call2_v0 : Ref sig .tc := ⟨.hbm, 36, rfl⟩
abbrev main_call2_v1 : Ref sig .tc := ⟨.hbm, 37, rfl⟩
abbrev main_v18 : Ref sig .tc := ⟨.hbm, 38, rfl⟩
abbrev main_v19 : Ref sig .tc := ⟨.hbm, 39, rfl⟩
abbrev main_cst_4 : Ref sig .tc := ⟨.hbm, 40, rfl⟩
abbrev main_call3_v0 : Ref sig .tc := ⟨.hbm, 41, rfl⟩
abbrev main_call3_v1 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩

abbrev nD : Nat := 1
abbrev τ : Topo := Topo.v7x

variable {F : FTy → Type} [FloatOps F]

class Facts₀ : Prop where
  slices_S16384x1024_S16384x1_0_0 : S16384x1024.Slices ![0, 0] S16384x1
  shapeCasts_S16384x1_S16384 : S16384x1.ShapeCasts S16384
  slices_S16384x1024_S16384x1_0_1 : S16384x1024.Slices ![0, 1] S16384x1
  bcast_S_S16384 : S_.BroadcastsInDim S16384 (![] : Fin 0 → Fin S16384.rank)
  bcast_S16384_S16384x1_0 : S16384.BroadcastsInDim S16384x1 (![0] : Fin 1 → Fin S16384x1.rank)
  transposes_S2048x1024_S1024x2048_1_0 : S2048x1024.Transposes [1, 0] S1024x2048
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  transposes_S4096x2048_S2048x4096_1_0 : S4096x2048.Transposes [1, 0] S2048x4096
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  transposes_S2048x4096_S4096x2048_1_0 : S2048x4096.Transposes [1, 0] S4096x2048
  transposes_S1024x2048_S2048x1024_1_0 : S1024x2048.Transposes [1, 0] S2048x1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S16384x1_S16384x1024_0_1 : S16384x1.BroadcastsInDim S16384x1024 (![0, 1] : Fin 2 → Fin S16384x1024.rank)
  dot_S16384x1024_S1024x2048_S16384x2048_1_0_0_1_n_n_wf : DotDims.WF S16384x1024 S1024x2048 S16384x2048 [1] [0] [0] [1] [] []
  dot_S16384x2048_S2048x4096_S16384x4096_1_0_0_1_n_n_wf : DotDims.WF S16384x2048 S2048x4096 S16384x4096 [1] [0] [0] [1] [] []
  dot_S16384x4096_S4096x2048_S16384x2048_1_0_0_1_n_n_wf : DotDims.WF S16384x4096 S4096x2048 S16384x2048 [1] [0] [0] [1] [] []
  dot_S16384x2048_S2048x1024_S16384x1024_1_0_0_1_n_n_wf : DotDims.WF S16384x2048 S2048x1024 S16384x1024 [1] [0] [0] [1] [] []

variable [Facts₀]

def dot_S16384x1024_S1024x2048_S16384x2048_1_0_0_1_n_n : DotDims S16384x1024 S1024x2048 S16384x2048 where
  lhsContracting := [1]
  rhsContracting := [0]
  lhsNonContracting := [0]
  rhsNonContracting := [1]
  lhsBatch := []
  rhsBatch := []
  wf := dot_S16384x1024_S1024x2048_S16384x2048_1_0_0_1_n_n_wf
def dot_S16384x2048_S2048x4096_S16384x4096_1_0_0_1_n_n : DotDims S16384x2048 S2048x4096 S16384x4096 where
  lhsContracting := [1]
  rhsContracting := [0]
  lhsNonContracting := [0]
  rhsNonContracting := [1]
  lhsBatch := []
  rhsBatch := []
  wf := dot_S16384x2048_S2048x4096_S16384x4096_1_0_0_1_n_n_wf
def dot_S16384x4096_S4096x2048_S16384x2048_1_0_0_1_n_n : DotDims S16384x4096 S4096x2048 S16384x2048 where
  lhsContracting := [1]
  rhsContracting := [0]
  lhsNonContracting := [0]
  rhsNonContracting := [1]
  lhsBatch := []
  rhsBatch := []
  wf := dot_S16384x4096_S4096x2048_S16384x2048_1_0_0_1_n_n_wf
def dot_S16384x2048_S2048x1024_S16384x1024_1_0_0_1_n_n : DotDims S16384x2048 S2048x1024 S16384x1024 where
  lhsContracting := [1]
  rhsContracting := [0]
  lhsNonContracting := [0]
  rhsNonContracting := [1]
  lhsBatch := []
  rhsBatch := []
  wf := dot_S16384x2048_S2048x1024_S16384x1024_1_0_0_1_n_n_wf

class Facts : Prop extends Facts₀ where

variable [Facts]
-- ==== Proof.Spec.lean ====
/-
  The mathematics both programs compute, over the extended reals, with no program in sight.

  A dense layer maps an activation matrix `x : [M, K]`, a weight matrix `w : [N, K]` (one ROW per output
  feature, as `torch.nn.Linear` keeps it) and a bias `b : [N]` to `y[i, j] = (∑ k, x[i, k] · w[j, k]) + b[j]`
  (`dense`). The network is three such layers each followed by `tanh` (`tanhLayer`), and a fourth whose output is
  squared and scaled, row by row, by a limiter column `lim : [M, 1]` (`sqLayer`).

  Two reading lemmas say how a matrix product with the contraction on the left operand's axis 1 and the right
  operand's axis 0 reads at an index (`sum_contr_plain`: the sum over the dot's one-axis contraction index is the
  sum over `Fin K`), and how the kernel's tile computation — both operands loaded, the weight tile transposed, the
  product taken into a zero accumulator, the bias row added — reads at `(p, q)` (`tile_affine_apply`): row `p` of
  the activation tile against row `q` of the weight tile, plus the bias at `q`.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.Mlp

open Idealize.ShloMosaic Idealize.ShloMosaic.ValueIdx

/-- Rows of `x` against rows of `w`, plus the bias: `y[i, j] = (∑ k, x[i, k] · w[j, k]) + b[j]`. -/
def dense {M K N : ℕ} (x : (⟨2, ![M, K]⟩ : Shape).Idx → EReal) (w : (⟨2, ![N, K]⟩ : Shape).Idx → EReal)
    (b : (⟨1, ![N]⟩ : Shape).Idx → EReal) : (⟨2, ![M, N]⟩ : Shape).Idx → EReal :=
  fun i => (∑ k : Fin K, x (ix2 (i 0) k) * w (ix2 (i 1) k)) + b (ix1 (i 1))

/-- A dense layer followed by `tanh` (extended to `±∞` by its limits `±1`). -/
def tanhLayer {M K N : ℕ} (x : (⟨2, ![M, K]⟩ : Shape).Idx → EReal) (w : (⟨2, ![N, K]⟩ : Shape).Idx → EReal)
    (b : (⟨1, ![N]⟩ : Shape).Idx → EReal) : (⟨2, ![M, N]⟩ : Shape).Idx → EReal :=
  fun i => Ideal.tanh (dense x w b i)

/-- The last layer: the dense output squared, each row scaled by that row's limiter. -/
def sqLayer {M K N : ℕ} (x : (⟨2, ![M, K]⟩ : Shape).Idx → EReal) (w : (⟨2, ![N, K]⟩ : Shape).Idx → EReal)
    (b : (⟨1, ![N]⟩ : Shape).Idx → EReal) (lim : (⟨2, ![M, 1]⟩ : Shape).Idx → EReal) : (⟨2, ![M, N]⟩ : Shape).Idx → EReal :=
  fun i => (dense x w b i * dense x w b i) * lim (ix2 (i 0) (0 : Fin 1))

theorem dense_ix2 {M K N : ℕ} (x : (⟨2, ![M, K]⟩ : Shape).Idx → EReal) (w : (⟨2, ![N, K]⟩ : Shape).Idx → EReal)
    (b : (⟨1, ![N]⟩ : Shape).Idx → EReal) (p : Fin M) (q : Fin N) :
    dense x w b (ix2 p q) = (∑ k : Fin K, x (ix2 p k) * w (ix2 q k)) + b (ix1 q) := rfl

/-- A matrix product contracting the left operand's axis 1 with the right operand's axis 0, read at an output index:
    the sum over the dot's contraction index is the sum over the `K` positions of that one axis. The four hypotheses
    say which coordinate of each operand index comes from where; they hold of a printed dot record by unfolding. -/
theorem sum_contr_plain {A K B : ℕ} (d : DotDims ⟨2, ![A, K]⟩ ⟨2, ![K, B]⟩ ⟨2, ![A, B]⟩)
    (hr : d.contr.rank = 1) (hs : d.contr.size ⟨0, by omega⟩ = K)
    (h0 : ∀ i q, (d.lhsIdx i q 0).val = (i 0).val) (h1 : ∀ i q, (d.lhsIdx i q 1).val = (q ⟨0, by omega⟩).val)
    (h2 : ∀ i q, (d.rhsIdx i q 0).val = (q ⟨0, by omega⟩).val) (h3 : ∀ i q, (d.rhsIdx i q 1).val = (i 1).val)
    (l : (⟨2, ![A, K]⟩ : Shape).Idx → EReal) (r : (⟨2, ![K, B]⟩ : Shape).Idx → EReal) (p : Fin A) (q : Fin B) :
    ∑ k : d.contr.Idx, l (d.lhsIdx (ix2 p q) k) * r (d.rhsIdx (ix2 p q) k) = ∑ k : Fin K, l (ix2 p k) * r (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact h0 _ _
    | ⟨1, _⟩ => exact (h1 _ _).trans hk)
  have er : d.rhsIdx (ix2 p q) ((contrEquiv1 d K hr hs).symm k) = ix2 k q := funext fun a => Fin.ext (by
    match a with
    | ⟨0, _⟩ => exact (h2 _ _).trans hk
    | ⟨1, _⟩ => exact h3 _ _)
  rw [el, er]

/-- The kernel's tile computation read at `(p, q)`: the activation tile `x : [A, K]` times the TRANSPOSED weight tile
    `w : [B, K]` into a zero accumulator, plus the bias row broadcast down the tile, is row `p` of `x` against row
    `q` of `w` plus `b[q]`. The same-shape casts around the loads are the identity. -/
theorem tile_affine_apply {A K B : ℕ} {φ₁ φ₂ : FTy} (d : DotDims ⟨2, ![A, K]⟩ ⟨2, ![K, B]⟩ ⟨2, ![A, B]⟩)
    (hr : d.contr.rank = 1) (hs : d.contr.size ⟨0, by omega⟩ = K)
    (h0 : ∀ i q, (d.lhsIdx i q 0).val = (i 0).val) (h1 : ∀ i q, (d.lhsIdx i q 1).val = (q ⟨0, by omega⟩).val)
    (h2 : ∀ i q, (d.rhsIdx i q 0).val = (q ⟨0, by omega⟩).val) (h3 : ∀ i q, (d.rhsIdx i q 1).val = (i 1).val)
    (hcx : (⟨2, ![A, K]⟩ : Shape).ShapeCasts ⟨2, ![A, K]⟩) (hcw : (⟨2, ![B, K]⟩ : Shape).ShapeCasts ⟨2, ![B, K]⟩)
    (ht : (⟨2, ![B, K]⟩ : Shape).Transposes [1, 0] ⟨2, ![K, B]⟩)
    (hcb : (⟨1, ![B]⟩ : Shape).ShapeCasts ⟨2, ![1, B]⟩) (hbb : (⟨2, ![1, B]⟩ : Shape).Broadcasts ⟨2, ![A, B]⟩)
    (x : FVec Ideal ⟨2, ![A, K]⟩ φ₁) (w : FVec Ideal ⟨2, ![B, K]⟩ φ₂) (b : FVec Ideal ⟨1, ![B]⟩ .f32) (p : Fin A) (q : Fin B) :
    addf (matmul d none (shapeCast ⟨2, ![A, K]⟩ x hcx) (transpose ⟨2, ![K, B]⟩ [1, 0] (shapeCast ⟨2, ![B, K]⟩ w hcw) ht)
        (constant ⟨2, ![A, B]⟩ .f32 0x00000000#32))
      (broadcastTo ⟨2, ![A, B]⟩ (shapeCast ⟨2, ![1, B]⟩ b hcb) hbb) (ix2 p q)
    = (∑ k : Fin K, x (ix2 p k) * w (ix2 q k)) + b (ix1 q) := by
  rw [addf_apply, shapeCast_self, shapeCast_self]
  show FloatOps.matmul d none x _ _ (ix2 p q) + _ = _
  rw [Ideal.matmul_constant_zero_apply, sum_contr_plain d hr hs h0 h1 h2 h3, broadcastTo_1b_ab_apply, shapeCast_a_1a_apply]
  refine congrArg (· + b (ix1 q)) (Finset.sum_congr rfl fun k _ => ?_)
  rw [transpose_ix2_apply]

/-- A column `[A, 1]` broadcast across `[A, B]` reads, at `(p, q)`, the column at row `p`. -/
theorem broadcastTo_a1_ab_apply {α : Type} {A B : ℕ} (v : (⟨2, ![A, 1]⟩ : Shape).Idx → α)
    (h : (⟨2, ![A, 1]⟩ : Shape).Broadcasts ⟨2, ![A, B]⟩) (p : Fin A) (q : Fin B) :
    broadcastTo ⟨2, ![A, B]⟩ v h (ix2 p q) = v (ix2 p (0 : Fin 1)) := by
  refine broadcastTo_apply v h (ix2 p q) (ix2 p (0 : Fin 1)) fun ax => ?_
  match ax with
  | ⟨0, _⟩ =>
    show p.val = if A = 1 then 0 else p.val
    split
    · have := p.isLt; omega
    · rfl
  | ⟨1, _⟩ => rfl

end Cert.Mlp

end
-- ==== Proof.Layer0.lean ====
/-
  Region 0 of the kernel program at the ideal instance: the dense layer `[16384, 1024] × [2048, 1024]ᵀ + [2048]` followed
  by `tanh`, computed tile by tile on a grid of 4 × 32 points. Each point writes one 512 × 512 block of the output: it
  multiplies the 512-row tile of the activations in the block's row position by the 512-row tile of the weights in the
  block's column position, adds that tile of the bias and stores the `tanh`. Proved here, whatever the arrays `V` the
  region is entered with: each tile the body stores is the matching tile of `Mlp.tanhLayer` of the three whole arrays
  (`flushed`); the output blocks tile the whole `[16384, 2048]` array (`cover`); so the region leaves the output
  array at `Mlp.tanhLayer` of its inputs (`arr`).
-/
import proofs.«139544_j83064667505168_1_alg».proof.Proof.Gen.KernelIdeal.Frame
import proofs.«139544_j83064667505168_1_alg».proof.Proof.Spec

set_option maxRecDepth 16384

noncomputable section

namespace Cert.KernelIdeal.Layer0

open Cert.KernelIdeal Cert.KernelIdeal.Gen Cert.Mlp
open Idealize.ShloMosaic Idealize.ShloMosaic.TcCoe Idealize.ShloMosaic.ValueIdx Idealize.SL.Sem
open Idealize.ShloMosaic.Pipeline (Dat Cfg Window)

/-! ## The tile product's operand indices -/

theorem lhs_axis0 (i : S512x512.Idx) (q : dot_S512x1024_S1024x512_S512x512_1_0_0_1_n_n.contr.Idx) :
    (dot_S512x1024_S1024x512_S512x512_1_0_0_1_n_n.lhsIdx i q 0).val = (i 0).val := by
  unfold DotDims.lhsIdx
  rw [dif_neg (show ¬(0 : Fin S512x1024.rank) ∈ dot_S512x1024_S1024x512_S512x512_1_0_0_1_n_n.lhsBatch by decide), dif_pos (show (0 : Fin S512x1024.rank) ∈ dot_S512x1024_S1024x512_S512x512_1_0_0_1_n_n.lhsNonContracting by decide)]
  rfl
theorem lhs_axis1 (i : S512x512.Idx) (q : dot_S512x1024_S1024x512_S512x512_1_0_0_1_n_n.contr.Idx) :
    (dot_S512x1024_S1024x512_S512x512_1_0_0_1_n_n.lhsIdx i q 1).val = (q ⟨0, by decide⟩).val :=
  dot_S512x1024_S1024x512_S512x512_1_0_0_1_n_n.lhsIdx_val_of_single rfl i q
theorem rhs_axis0 (i : S512x512.Idx) (q : dot_S512x1024_S1024x512_S512x512_1_0_0_1_n_n.contr.Idx) :
    (dot_S512x1024_S1024x512_S512x512_1_0_0_1_n_n.rhsIdx i q 0).val = (q ⟨0, by decide⟩).val :=
  dot_S512x1024_S1024x512_S512x512_1_0_0_1_n_n.rhsIdx_val_of_single rfl i q
theorem rhs_axis1 (i : S512x512.Idx) (q : dot_S512x1024_S1024x512_S512x512_1_0_0_1_n_n.contr.Idx) :
    (dot_S512x1024_S1024x512_S512x512_1_0_0_1_n_n.rhsIdx i q 1).val = (i 1).val := by
  unfold DotDims.rhsIdx
  rw [dif_neg (show ¬(1 : Fin S1024x512.rank) ∈ dot_S512x1024_S1024x512_S512x512_1_0_0_1_n_n.rhsBatch by decide), dif_pos (show (1 : Fin S1024x512.rank) ∈ dot_S512x1024_S1024x512_S512x512_1_0_0_1_n_n.rhsNonContracting by decide)]
  rfl

/-! ## What the body stores, at an index of the tile -/

/-- The stored tile at `(p, q)`: `tanh` of row `p` of the activation tile against row `q` of the weight tile plus the
    bias at `q` (the narrowing to bf16 is the identity on the extended reals). -/
theorem pay_apply (x : Vec Ideal S512x1024 .bf16) (w : Vec Ideal S512x1024 .bf16) (b : Vec Ideal S512 .f32) (p q : Fin 512) :
    k0_pay1 (F := Ideal) x w b (ix2 p q) = Ideal.tanh ((∑ k : Fin 1024, x (ix2 p k) * w (ix2 q k)) + b (ix1 q)) := by
  unfold k0_pay1
  exact congrArg Ideal.tanh (tile_affine_apply dot_S512x1024_S1024x512_S512x512_1_0_0_1_n_n rfl rfl lhs_axis0 lhs_axis1 rhs_axis0 rhs_axis1
    shapeCasts_S512x1024_S512x1024 shapeCasts_S512x1024_S512x1024 transposes_S512x1024_p1_0_S1024x512 shapeCasts_S512_S1x512 broadcasts_S1x512_S512x512 x w b p q)

/-- The same with the three tiles known as pieces of whole arrays: the activation tile is row block `r` of `X`, the
    weight tile row block `s` of `W`, the bias tile block `s` of `B`. Then the stored tile at `(p, q)` is
    `tanhLayer X W B` at `(512 r + p, 512 s + q)`. -/
theorem tile_eq (x : Vec Ideal S512x1024 .bf16) (w : Vec Ideal S512x1024 .bf16) (b : Vec Ideal S512 .f32)
    (X : S16384x1024.Idx → EReal) (W : S2048x1024.Idx → EReal) (B : S2048.Idx → EReal) (r s : ℕ) (hr : r ≤ 31) (hs : s ≤ 3)
    (hx : ∀ (p : Fin 512) (k : Fin 1024), x (ix2 p k) = X (ix2 ⟨r * 512 + p.val, by omega⟩ k))
    (hw : ∀ (q : Fin 512) (k : Fin 1024), w (ix2 q k) = W (ix2 ⟨s * 512 + q.val, by omega⟩ k))
    (hb : ∀ q : Fin 512, b (ix1 q) = B (ix1 ⟨s * 512 + q.val, by omega⟩)) (p q : Fin 512) :
    k0_pay1 (F := Ideal) x w b (ix2 p q) = tanhLayer X W B (ix2 ⟨r * 512 + p.val, by omega⟩ ⟨s * 512 + q.val, by omega⟩) := by
  rw [pay_apply]
  unfold tanhLayer
  rw [dense_ix2, hb]
  exact congrArg (fun z => Ideal.tanh (z + _)) (Finset.sum_congr rfl fun k _ => by rw [hx, hw])

/-! ## The grid -/

theorem hz2 : (![0, 0] : Fin 2 → Nat) = fun _ => 0 := funext fun a => by fin_cases a <;> rfl
theorem hz1 : (![0] : Fin 1 → Nat) = fun _ => 0 := funext fun a => by fin_cases a; rfl

/-- The printed index maps, decided over the grid: the activation window moves with the output's row block, the
    weight and bias windows with its column block, and the block indices stay in range. -/
theorem idx_facts : ∀ t : Fin cfg0.N, win0_0.index t (0 : Fin 2) = win0_3.index t (0 : Fin 2)
    ∧ win0_0.index t (1 : Fin 2) = 0
    ∧ win0_1.index t (0 : Fin 2) = win0_3.index t (1 : Fin 2)
    ∧ win0_1.index t (1 : Fin 2) = 0
    ∧ win0_2.index t (0 : Fin 1) = win0_3.index t (1 : Fin 2)
    ∧ win0_3.index t (0 : Fin 2) ≤ 31 ∧ win0_3.index t (1 : Fin 2) ≤ 3 :=
  (by decide +kernel : ∀ t : Fin grid0.N, _)

/-- Every (row block, column block) of the output is some point's. -/
theorem idx_onto : ∀ (q0 : Fin 32) (q1 : Fin 4), ∃ t : Fin cfg0.N, win0_3.index t = ![q0.val, q1.val] :=
  (by decide +kernel : ∀ (q0 : Fin 32) (q1 : Fin 4), ∃ t : Fin grid0.N, win0_3.index t = ![q0.val, q1.val])

variable (V : (c : Dev nD) → (b : Ref sig .tc) → Buf (Elt Ideal) ((c : Thread nD τ).loc b))

/-- The region's three input arrays and its result, as arrays of extended reals. -/
abbrev xArr (c : Dev nD) : S16384x1024.Idx → EReal := V c main_v22
abbrev wArr (c : Dev nD) : S2048x1024.Idx → EReal := V c main_v23
abbrev bArr (c : Dev nD) : S2048.Idx → EReal := V c main_arg2

/-- WHAT POINT `t` WRITES BACK is block `t` of `tanhLayer` of the arrays the region is entered with. -/
theorem flushed (c : Dev nD) (t : Fin cfg0.N) :
    (dat0 V c).flushed 3 t = ((cfg0.win 3).blk t).view.read (Elt Ideal) (tanhLayer (xArr V c) (wArr V c) (bArr V c)) := by
  show (cfg0.win 3).cut (grid0.coords t) ((dat0 V c).after 3 t) = _
  rw [after0_3]
  unfold out0_3
  rw [View.canon_unit_zero hz2]
  simp only [View.ld_unit_zero (S := S512x1024) hz2, View.ld_unit_zero (S := S512) hz1]
  obtain ⟨e0, e1, e2, e3, e4, e5, e6⟩ := idx_facts t
  funext j
  show k0_pay1 (F := Ideal) (iblk0 V c 0 t) (iblk0 V c 1 t) (iblk0 V c 2 t) (ix2 (j 0) (j 1)) = tanhLayer (xArr V c) (wArr V c) (bArr V c) (((cfg0.win 3).blk t).view.emb j)
  refine (tile_eq (iblk0 V c 0 t) (iblk0 V c 1 t) (iblk0 V c 2 t) (xArr V c) (wArr V c) (bArr V c)
    (win0_3.index t (0 : Fin 2)) (win0_3.index t (1 : Fin 2)) e5 e6 ?_ ?_ ?_ (j 0) (j 1)).trans ?_
  · intro p k
    show V c main_v22 (((cfg0.win 0).blk t).view.emb (ix2 p k)) = V c main_v22 _
    refine congrArg (V c main_v22) (funext fun a => Fin.ext ?_)
    match a with
    | ⟨0, _⟩ => show win0_0.index t (0 : Fin 2) * 512 + 1 * p.val = win0_3.index t (0 : Fin 2) * 512 + p.val; omega
    | ⟨1, _⟩ => show win0_0.index t (1 : Fin 2) * 1024 + 1 * k.val = k.val; omega
  · intro q k
    show V c main_v23 (((cfg0.win 1).blk t).view.emb (ix2 q k)) = V c main_v23 _
    refine congrArg (V c main_v23) (funext fun a => Fin.ext ?_)
    match a with
    | ⟨0, _⟩ => show win0_1.index t (0 : Fin 2) * 512 + 1 * q.val = win0_3.index t (1 : Fin 2) * 512 + q.val; omega
    | ⟨1, _⟩ => show win0_1.index t (1 : Fin 2) * 1024 + 1 * k.val = k.val; omega
  · intro q
    show V c main_arg2 (((cfg0.win 2).blk t).view.emb (ix1 q)) = V c main_arg2 _
    refine congrArg (V c main_arg2) (funext fun a => Fin.ext ?_)
    match a with
    | ⟨0, _⟩ => show win0_2.index t (0 : Fin 1) * 512 + 1 * q.val = win0_3.index t (1 : Fin 2) * 512 + q.val; omega
  · refine congrArg (tanhLayer (xArr V c) (wArr V c) (bArr V c)) (funext fun a => Fin.ext ?_)
    match a with
    | ⟨0, _⟩ => show win0_3.index t (0 : Fin 2) * 512 + (j 0).val = win0_3.index t (0 : Fin 2) * 512 + 1 * (j 0).val; omega
    | ⟨1, _⟩ => show win0_3.index t (1 : Fin 2) * 512 + (j 1).val = win0_3.index t (1 : Fin 2) * 512 + 1 * (j 1).val; omega

/-- An index of the output array is in point `t`'s block iff each coordinate is in the block's range on its axis. -/
theorem mem_blk (t : Fin cfg0.N) (i : S16384x2048.Idx) :
    i ∈ ((cfg0.win 3).blk t).view.set ↔ ∀ a : Fin 2, win0_3.index t a * S512x512.size a ≤ (i a).val ∧ (i a).val < win0_3.index t a * S512x512.size a + S512x512.size a := by
  show i ∈ ((View.whole main_v27).slice (win0_3.rect t)).set ↔ _
  rw [View.set_slice_whole, Rect.mem_set_unit]
  exact Iff.rfl

/-- The output's blocks tile its array: index `(i₀, i₁)` lies in the block (`i₀ / 512`, `i₁ / 512`). -/
theorem cover (i : S16384x2048.Idx) : ∃ t : Fin cfg0.N, (cfg0.win 3).flush t = true ∧ i ∈ ((cfg0.win 3).blk t).view.set := by
  have hi0 : (i 0).val < 16384 := (i 0).isLt
  have hi1 : (i 1).val < 2048 := (i 1).isLt
  obtain ⟨t, ht⟩ := idx_onto ⟨(i 0).val / 512, by omega⟩ ⟨(i 1).val / 512, by omega⟩
  have q0 : win0_3.index t (0 : Fin 2) = (i 0).val / 512 := congrFun ht 0
  have q1 : win0_3.index t (1 : Fin 2) = (i 1).val / 512 := congrFun ht 1
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 512 ≤ (i 1).val ∧ (i 1).val < win0_3.index t (1 : Fin 2) * 512 + 512; omega

/-- THE OUTPUT ARRAY after the region: `tanhLayer` of the arrays the region is entered with. -/
theorem arr (c : Dev nD) : (dat0 V c).arrAt 3 cfg0.N = tanhLayer (xArr V c) (wArr V c) (bArr V c) :=
  (dat0 V c).arrAt_eq_of_cover 3 (tanhLayer (xArr V c) (wArr V c) (bArr V c)) (fun t _ => flushed V c t) cover

end Cert.KernelIdeal.Layer0

end
-- ==== Proof.Layer1.lean ====
/-
  Region 1 of the kernel program at the ideal instance: the dense layer `[16384, 2048] × [4096, 2048]ᵀ + [4096]` followed
  by `tanh`, computed tile by tile on a grid of 8 × 32 points. Each point writes one 512 × 512 block of the output: it
  multiplies the 512-row tile of the activations in the block's row position by the 512-row tile of the weights in the
  block's column position, adds that tile of the bias and stores the `tanh`. Proved here, whatever the arrays `V` the
  region is entered with: each tile the body stores is the matching tile of `Mlp.tanhLayer` of the three whole arrays
  (`flushed`); the output blocks tile the whole `[16384, 4096]` array (`cover`); so the region leaves the output
  array at `Mlp.tanhLayer` of its inputs (`arr`).
-/
import proofs.«139544_j83064667505168_1_alg».proof.Proof.Gen.KernelIdeal.Frame
import proofs.«139544_j83064667505168_1_alg».proof.Proof.Spec

set_option maxRecDepth 16384

noncomputable section

namespace Cert.KernelIdeal.Layer1

open Cert.KernelIdeal Cert.KernelIdeal.Gen Cert.Mlp
open Idealize.ShloMosaic Idealize.ShloMosaic.TcCoe Idealize.ShloMosaic.ValueIdx Idealize.SL.Sem
open Idealize.ShloMosaic.Pipeline (Dat Cfg Window)

/-! ## The tile product's operand indices -/

theorem lhs_axis0 (i : S512x512.Idx) (q : dot_S512x2048_S2048x512_S512x512_1_0_0_1_n_n.contr.Idx) :
    (dot_S512x2048_S2048x512_S512x512_1_0_0_1_n_n.lhsIdx i q 0).val = (i 0).val := by
  unfold DotDims.lhsIdx
  rw [dif_neg (show ¬(0 : Fin S512x2048.rank) ∈ dot_S512x2048_S2048x512_S512x512_1_0_0_1_n_n.lhsBatch by decide), dif_pos (show (0 : Fin S512x2048.rank) ∈ dot_S512x2048_S2048x512_S512x512_1_0_0_1_n_n.lhsNonContracting by decide)]
  rfl
theorem lhs_axis1 (i : S512x512.Idx) (q : dot_S512x2048_S2048x512_S512x512_1_0_0_1_n_n.contr.Idx) :
    (dot_S512x2048_S2048x512_S512x512_1_0_0_1_n_n.lhsIdx i q 1).val = (q ⟨0, by decide⟩).val :=
  dot_S512x2048_S2048x512_S512x512_1_0_0_1_n_n.lhsIdx_val_of_single rfl i q
theorem rhs_axis0 (i : S512x512.Idx) (q : dot_S512x2048_S2048x512_S512x512_1_0_0_1_n_n.contr.Idx) :
    (dot_S512x2048_S2048x512_S512x512_1_0_0_1_n_n.rhsIdx i q 0).val = (q ⟨0, by decide⟩).val :=
  dot_S512x2048_S2048x512_S512x512_1_0_0_1_n_n.rhsIdx_val_of_single rfl i q
theorem rhs_axis1 (i : S512x512.Idx) (q : dot_S512x2048_S2048x512_S512x512_1_0_0_1_n_n.contr.Idx) :
    (dot_S512x2048_S2048x512_S512x512_1_0_0_1_n_n.rhsIdx i q 1).val = (i 1).val := by
  unfold DotDims.rhsIdx
  rw [dif_neg (show ¬(1 : Fin S2048x512.rank) ∈ dot_S512x2048_S2048x512_S512x512_1_0_0_1_n_n.rhsBatch by decide), dif_pos (show (1 : Fin S2048x512.rank) ∈ dot_S512x2048_S2048x512_S512x512_1_0_0_1_n_n.rhsNonContracting by decide)]
  rfl

/-! ## What the body stores, at an index of the tile -/

/-- The stored tile at `(p, q)`: `tanh` of row `p` of the activation tile against row `q` of the weight tile plus the
    bias at `q` (the narrowing to bf16 is the identity on the extended reals). -/
theorem pay_apply (x : Vec Ideal S512x2048 .bf16) (w : Vec Ideal S512x2048 .bf16) (b : Vec Ideal S512 .f32) (p q : Fin 512) :
    k1_pay1 (F := Ideal) x w b (ix2 p q) = Ideal.tanh ((∑ k : Fin 2048, x (ix2 p k) * w (ix2 q k)) + b (ix1 q)) := by
  unfold k1_pay1
  exact congrArg Ideal.tanh (tile_affine_apply dot_S512x2048_S2048x512_S512x512_1_0_0_1_n_n rfl rfl lhs_axis0 lhs_axis1 rhs_axis0 rhs_axis1
    shapeCasts_S512x2048_S512x2048 shapeCasts_S512x2048_S512x2048 transposes_S512x2048_p1_0_S2048x512 shapeCasts_S512_S1x512 broadcasts_S1x512_S512x512 x w b p q)

/-- The same with the three tiles known as pieces of whole arrays: the activation tile is row block `r` of `X`, the
    weight tile row block `s` of `W`, the bias tile block `s` of `B`. Then the stored tile at `(p, q)` is
    `tanhLayer X W B` at `(512 r + p, 512 s + q)`. -/
theorem tile_eq (x : Vec Ideal S512x2048 .bf16) (w : Vec Ideal S512x2048 .bf16) (b : Vec Ideal S512 .f32)
    (X : S16384x2048.Idx → EReal) (W : S4096x2048.Idx → EReal) (B : S4096.Idx → EReal) (r s : ℕ) (hr : r ≤ 31) (hs : s ≤ 7)
    (hx : ∀ (p : Fin 512) (k : Fin 2048), x (ix2 p k) = X (ix2 ⟨r * 512 + p.val, by omega⟩ k))
    (hw : ∀ (q : Fin 512) (k : Fin 2048), w (ix2 q k) = W (ix2 ⟨s * 512 + q.val, by omega⟩ k))
    (hb : ∀ q : Fin 512, b (ix1 q) = B (ix1 ⟨s * 512 + q.val, by omega⟩)) (p q : Fin 512) :
    k1_pay1 (F := Ideal) x w b (ix2 p q) = tanhLayer X W B (ix2 ⟨r * 512 + p.val, by omega⟩ ⟨s * 512 + q.val, by omega⟩) := by
  rw [pay_apply]
  unfold tanhLayer
  rw [dense_ix2, hb]
  exact congrArg (fun z => Ideal.tanh (z + _)) (Finset.sum_congr rfl fun k _ => by rw [hx, hw])

/-! ## The grid -/

theorem hz2 : (![0, 0] : Fin 2 → Nat) = fun _ => 0 := funext fun a => by fin_cases a <;> rfl
theorem hz1 : (![0] : Fin 1 → Nat) = fun _ => 0 := funext fun a => by fin_cases a; rfl

/-- The printed index maps, decided over the grid: the activation window moves with the output's row block, the
    weight and bias windows with its column block, and the block indices stay in range. -/
theorem idx_facts : ∀ t : Fin cfg1.N, win1_0.index t (0 : Fin 2) = win1_3.index t (0 : Fin 2)
    ∧ win1_0.index t (1 : Fin 2) = 0
    ∧ win1_1.index t (0 : Fin 2) = win1_3.index t (1 : Fin 2)
    ∧ win1_1.index t (1 : Fin 2) = 0
    ∧ win1_2.index t (0 : Fin 1) = win1_3.index t (1 : Fin 2)
    ∧ win1_3.index t (0 : Fin 2) ≤ 31 ∧ win1_3.index t (1 : Fin 2) ≤ 7 :=
  (by decide +kernel : ∀ t : Fin grid1.N, _)

/-- Every (row block, column block) of the output is some point's. -/
theorem idx_onto : ∀ (q0 : Fin 32) (q1 : Fin 8), ∃ t : Fin cfg1.N, win1_3.index t = ![q0.val, q1.val] :=
  (by decide +kernel : ∀ (q0 : Fin 32) (q1 : Fin 8), ∃ t : Fin grid1.N, win1_3.index t = ![q0.val, q1.val])

variable (V : (c : Dev nD) → (b : Ref sig .tc) → Buf (Elt Ideal) ((c : Thread nD τ).loc b))

/-- The region's three input arrays and its result, as arrays of extended reals. -/
abbrev xArr (c : Dev nD) : S16384x2048.Idx → EReal := V c main_v27
abbrev wArr (c : Dev nD) : S4096x2048.Idx → EReal := V c main_v24
abbrev bArr (c : Dev nD) : S4096.Idx → EReal := V c main_arg4

/-- WHAT POINT `t` WRITES BACK is block `t` of `tanhLayer` of the arrays the region is entered with. -/
theorem flushed (c : Dev nD) (t : Fin cfg1.N) :
    (dat1 V c).flushed 3 t = ((cfg1.win 3).blk t).view.read (Elt Ideal) (tanhLayer (xArr V c) (wArr V c) (bArr V c)) := by
  show (cfg1.win 3).cut (grid1.coords t) ((dat1 V c).after 3 t) = _
  rw [after1_3]
  unfold out1_3
  rw [View.canon_unit_zero hz2]
  simp only [View.ld_unit_zero (S := S512x2048) hz2, View.ld_unit_zero (S := S512) hz1]
  obtain ⟨e0, e1, e2, e3, e4, e5, e6⟩ := idx_facts t
  funext j
  show k1_pay1 (F := Ideal) (iblk1 V c 0 t) (iblk1 V c 1 t) (iblk1 V c 2 t) (ix2 (j 0) (j 1)) = tanhLayer (xArr V c) (wArr V c) (bArr V c) (((cfg1.win 3).blk t).view.emb j)
  refine (tile_eq (iblk1 V c 0 t) (iblk1 V c 1 t) (iblk1 V c 2 t) (xArr V c) (wArr V c) (bArr V c)
    (win1_3.index t (0 : Fin 2)) (win1_3.index t (1 : Fin 2)) e5 e6 ?_ ?_ ?_ (j 0) (j 1)).trans ?_
  · intro p k
    show V c main_v27 (((cfg1.win 0).blk t).view.emb (ix2 p k)) = V c main_v27 _
    refine congrArg (V c main_v27) (funext fun a => Fin.ext ?_)
    match a with
    | ⟨0, _⟩ => show win1_0.index t (0 : Fin 2) * 512 + 1 * p.val = win1_3.index t (0 : Fin 2) * 512 + p.val; omega
    | ⟨1, _⟩ => show win1_0.index t (1 : Fin 2) * 2048 + 1 * k.val = k.val; omega
  · intro q k
    show V c main_v24 (((cfg1.win 1).blk t).view.emb (ix2 q k)) = V c main_v24 _
    refine congrArg (V c main_v24) (funext fun a => Fin.ext ?_)
    match a with
    | ⟨0, _⟩ => show win1_1.index t (0 : Fin 2) * 512 + 1 * q.val = win1_3.index t (1 : Fin 2) * 512 + q.val; omega
    | ⟨1, _⟩ => show win1_1.index t (1 : Fin 2) * 2048 + 1 * k.val = k.val; omega
  · intro q
    show V c main_arg4 (((cfg1.win 2).blk t).view.emb (ix1 q)) = V c main_arg4 _
    refine congrArg (V c main_arg4) (funext fun a => Fin.ext ?_)
    match a with
    | ⟨0, _⟩ => show win1_2.index t (0 : Fin 1) * 512 + 1 * q.val = win1_3.index t (1 : Fin 2) * 512 + q.val; omega
  · refine congrArg (tanhLayer (xArr V c) (wArr V c) (bArr V c)) (funext fun a => Fin.ext ?_)
    match a with
    | ⟨0, _⟩ => show win1_3.index t (0 : Fin 2) * 512 + (j 0).val = win1_3.index t (0 : Fin 2) * 512 + 1 * (j 0).val; omega
    | ⟨1, _⟩ => show win1_3.index t (1 : Fin 2) * 512 + (j 1).val = win1_3.index t (1 : Fin 2) * 512 + 1 * (j 1).val; omega

/-- An index of the output array is in point `t`'s block iff each coordinate is in the block's range on its axis. -/
theorem mem_blk (t : Fin cfg1.N) (i : S16384x4096.Idx) :
    i ∈ ((cfg1.win 3).blk t).view.set ↔ ∀ a : Fin 2, win1_3.index t a * S512x512.size a ≤ (i a).val ∧ (i a).val < win1_3.index t a * S512x512.size a + S512x512.size a := by
  show i ∈ ((View.whole main_v28).slice (win1_3.rect t)).set ↔ _
  rw [View.set_slice_whole, Rect.mem_set_unit]
  exact Iff.rfl

/-- The output's blocks tile its array: index `(i₀, i₁)` lies in the block (`i₀ / 512`, `i₁ / 512`). -/
theorem cover (i : S16384x4096.Idx) : ∃ t : Fin cfg1.N, (cfg1.win 3).flush t = true ∧ i ∈ ((cfg1.win 3).blk t).view.set := by
  have hi0 : (i 0).val < 16384 := (i 0).isLt
  have hi1 : (i 1).val < 4096 := (i 1).isLt
  obtain ⟨t, ht⟩ := idx_onto ⟨(i 0).val / 512, by omega⟩ ⟨(i 1).val / 512, by omega⟩
  have q0 : win1_3.index t (0 : Fin 2) = (i 0).val / 512 := congrFun ht 0
  have q1 : win1_3.index t (1 : Fin 2) = (i 1).val / 512 := congrFun ht 1
  refine ⟨t, flush1_3 t, ?_⟩
  rw [mem_blk]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 512 ≤ (i 1).val ∧ (i 1).val < win1_3.index t (1 : Fin 2) * 512 + 512; omega

/-- THE OUTPUT ARRAY after the region: `tanhLayer` of the arrays the region is entered with. -/
theorem arr (c : Dev nD) : (dat1 V c).arrAt 3 cfg1.N = tanhLayer (xArr V c) (wArr V c) (bArr V c) :=
  (dat1 V c).arrAt_eq_of_cover 3 (tanhLayer (xArr V c) (wArr V c) (bArr V c)) (fun t _ => flushed V c t) cover

end Cert.KernelIdeal.Layer1

end
-- ==== Proof.Layer2.lean ====
/-
  Region 2 of the kernel program at the ideal instance: the dense layer `[16384, 4096] × [2048, 4096]ᵀ + [2048]` followed
  by `tanh`, computed tile by tile on a grid of 4 × 32 points. Each point writes one 512 × 512 block of the output: it
  multiplies the 512-row tile of the activations in the block's row position by the 512-row tile of the weights in the
  block's column position, adds that tile of the bias and stores the `tanh`. Proved here, whatever the arrays `V` the
  region is entered with: each tile the body stores is the matching tile of `Mlp.tanhLayer` of the three whole arrays
  (`flushed`); the output blocks tile the whole `[16384, 2048]` array (`cover`); so the region leaves the output
  array at `Mlp.tanhLayer` of its inputs (`arr`).
-/
import proofs.«139544_j83064667505168_1_alg».proof.Proof.Gen.KernelIdeal.Frame
import proofs.«139544_j83064667505168_1_alg».proof.Proof.Spec

set_option maxRecDepth 16384

noncomputable section

namespace Cert.KernelIdeal.Layer2

open Cert.KernelIdeal Cert.KernelIdeal.Gen Cert.Mlp
open Idealize.ShloMosaic Idealize.ShloMosaic.TcCoe Idealize.ShloMosaic.ValueIdx Idealize.SL.Sem
open Idealize.ShloMosaic.Pipeline (Dat Cfg Window)

/-! ## The tile product's operand indices -/

theorem lhs_axis0 (i : S512x512.Idx) (q : dot_S512x4096_S4096x512_S512x512_1_0_0_1_n_n.contr.Idx) :
    (dot_S512x4096_S4096x512_S512x512_1_0_0_1_n_n.lhsIdx i q 0).val = (i 0).val := by
  unfold DotDims.lhsIdx
  rw [dif_neg (show ¬(0 : Fin S512x4096.rank) ∈ dot_S512x4096_S4096x512_S512x512_1_0_0_1_n_n.lhsBatch by decide), dif_pos (show (0 : Fin S512x4096.rank) ∈ dot_S512x4096_S4096x512_S512x512_1_0_0_1_n_n.lhsNonContracting by decide)]
  rfl
theorem lhs_axis1 (i : S512x512.Idx) (q : dot_S512x4096_S4096x512_S512x512_1_0_0_1_n_n.contr.Idx) :
    (dot_S512x4096_S4096x512_S512x512_1_0_0_1_n_n.lhsIdx i q 1).val = (q ⟨0, by decide⟩).val :=
  dot_S512x4096_S4096x512_S512x512_1_0_0_1_n_n.lhsIdx_val_of_single rfl i q
theorem rhs_axis0 (i : S512x512.Idx) (q : dot_S512x4096_S4096x512_S512x512_1_0_0_1_n_n.contr.Idx) :
    (dot_S512x4096_S4096x512_S512x512_1_0_0_1_n_n.rhsIdx i q 0).val = (q ⟨0, by decide⟩).val :=
  dot_S512x4096_S4096x512_S512x512_1_0_0_1_n_n.rhsIdx_val_of_single rfl i q
theorem rhs_axis1 (i : S512x512.Idx) (q : dot_S512x4096_S4096x512_S512x512_1_0_0_1_n_n.contr.Idx) :
    (dot_S512x4096_S4096x512_S512x512_1_0_0_1_n_n.rhsIdx i q 1).val = (i 1).val := by
  unfold DotDims.rhsIdx
  rw [dif_neg (show ¬(1 : Fin S4096x512.rank) ∈ dot_S512x4096_S4096x512_S512x512_1_0_0_1_n_n.rhsBatch by decide), dif_pos (show (1 : Fin S4096x512.rank) ∈ dot_S512x4096_S4096x512_S512x512_1_0_0_1_n_n.rhsNonContracting by decide)]
  rfl

/-! ## What the body stores, at an index of the tile -/

/-- The stored tile at `(p, q)`: `tanh` of row `p` of the activation tile against row `q` of the weight tile plus the
    bias at `q` (the narrowing to bf16 is the identity on the extended reals). -/
theorem pay_apply (x : Vec Ideal S512x4096 .bf16) (w : Vec Ideal S512x4096 .bf16) (b : Vec Ideal S512 .f32) (p q : Fin 512) :
    k2_pay1 (F := Ideal) x w b (ix2 p q) = Ideal.tanh ((∑ k : Fin 4096, x (ix2 p k) * w (ix2 q k)) + b (ix1 q)) := by
  unfold k2_pay1
  exact congrArg Ideal.tanh (tile_affine_apply dot_S512x4096_S4096x512_S512x512_1_0_0_1_n_n rfl rfl lhs_axis0 lhs_axis1 rhs_axis0 rhs_axis1
    shapeCasts_S512x4096_S512x4096 shapeCasts_S512x4096_S512x4096 transposes_S512x4096_p1_0_S4096x512 shapeCasts_S512_S1x512 broadcasts_S1x512_S512x512 x w b p q)

/-- The same with the three tiles known as pieces of whole arrays: the activation tile is row block `r` of `X`, the
    weight tile row block `s` of `W`, the bias tile block `s` of `B`. Then the stored tile at `(p, q)` is
    `tanhLayer X W B` at `(512 r + p, 512 s + q)`. -/
theorem tile_eq (x : Vec Ideal S512x4096 .bf16) (w : Vec Ideal S512x4096 .bf16) (b : Vec Ideal S512 .f32)
    (X : S16384x4096.Idx → EReal) (W : S2048x4096.Idx → EReal) (B : S2048.Idx → EReal) (r s : ℕ) (hr : r ≤ 31) (hs : s ≤ 3)
    (hx : ∀ (p : Fin 512) (k : Fin 4096), x (ix2 p k) = X (ix2 ⟨r * 512 + p.val, by omega⟩ k))
    (hw : ∀ (q : Fin 512) (k : Fin 4096), w (ix2 q k) = W (ix2 ⟨s * 512 + q.val, by omega⟩ k))
    (hb : ∀ q : Fin 512, b (ix1 q) = B (ix1 ⟨s * 512 + q.val, by omega⟩)) (p q : Fin 512) :
    k2_pay1 (F := Ideal) x w b (ix2 p q) = tanhLayer X W B (ix2 ⟨r * 512 + p.val, by omega⟩ ⟨s * 512 + q.val, by omega⟩) := by
  rw [pay_apply]
  unfold tanhLayer
  rw [dense_ix2, hb]
  exact congrArg (fun z => Ideal.tanh (z + _)) (Finset.sum_congr rfl fun k _ => by rw [hx, hw])

/-! ## The grid -/

theorem hz2 : (![0, 0] : Fin 2 → Nat) = fun _ => 0 := funext fun a => by fin_cases a <;> rfl
theorem hz1 : (![0] : Fin 1 → Nat) = fun _ => 0 := funext fun a => by fin_cases a; rfl

/-- The printed index maps, decided over the grid: the activation window moves with the output's row block, the
    weight and bias windows with its column block, and the block indices stay in range. -/
theorem idx_facts : ∀ t : Fin cfg2.N, win2_0.index t (0 : Fin 2) = win2_3.index t (0 : Fin 2)
    ∧ win2_0.index t (1 : Fin 2) = 0
    ∧ win2_1.index t (0 : Fin 2) = win2_3.index t (1 : Fin 2)
    ∧ win2_1.index t (1 : Fin 2) = 0
    ∧ win2_2.index t (0 : Fin 1) = win2_3.index t (1 : Fin 2)
    ∧ win2_3.index t (0 : Fin 2) ≤ 31 ∧ win2_3.index t (1 : Fin 2) ≤ 3 :=
  (by decide +kernel : ∀ t : Fin grid2.N, _)

/-- Every (row block, column block) of the output is some point's. -/
theorem idx_onto : ∀ (q0 : Fin 32) (q1 : Fin 4), ∃ t : Fin cfg2.N, win2_3.index t = ![q0.val, q1.val] :=
  (by decide +kernel : ∀ (q0 : Fin 32) (q1 : Fin 4), ∃ t : Fin grid2.N, win2_3.index t = ![q0.val, q1.val])

variable (V : (c : Dev nD) → (b : Ref sig .tc) → Buf (Elt Ideal) ((c : Thread nD τ).loc b))

/-- The region's three input arrays and its result, as arrays of extended reals. -/
abbrev xArr (c : Dev nD) : S16384x4096.Idx → EReal := V c main_v28
abbrev wArr (c : Dev nD) : S2048x4096.Idx → EReal := V c main_v25
abbrev bArr (c : Dev nD) : S2048.Idx → EReal := V c main_arg6

/-- WHAT POINT `t` WRITES BACK is block `t` of `tanhLayer` of the arrays the region is entered with. -/
theorem flushed (c : Dev nD) (t : Fin cfg2.N) :
    (dat2 V c).flushed 3 t = ((cfg2.win 3).blk t).view.read (Elt Ideal) (tanhLayer (xArr V c) (wArr V c) (bArr V c)) := by
  show (cfg2.win 3).cut (grid2.coords t) ((dat2 V c).after 3 t) = _
  rw [after2_3]
  unfold out2_3
  rw [View.canon_unit_zero hz2]
  simp only [View.ld_unit_zero (S := S512x4096) hz2, View.ld_unit_zero (S := S512) hz1]
  obtain ⟨e0, e1, e2, e3, e4, e5, e6⟩ := idx_facts t
  funext j
  show k2_pay1 (F := Ideal) (iblk2 V c 0 t) (iblk2 V c 1 t) (iblk2 V c 2 t) (ix2 (j 0) (j 1)) = tanhLayer (xArr V c) (wArr V c) (bArr V c) (((cfg2.win 3).blk t).view.emb j)
  refine (tile_eq (iblk2 V c 0 t) (iblk2 V c 1 t) (iblk2 V c 2 t) (xArr V c) (wArr V c) (bArr V c)
    (win2_3.index t (0 : Fin 2)) (win2_3.index t (1 : Fin 2)) e5 e6 ?_ ?_ ?_ (j 0) (j 1)).trans ?_
  · intro p k
    show V c main_v28 (((cfg2.win 0).blk t).view.emb (ix2 p k)) = V c main_v28 _
    refine congrArg (V c main_v28) (funext fun a => Fin.ext ?_)
    match a with
    | ⟨0, _⟩ => show win2_0.index t (0 : Fin 2) * 512 + 1 * p.val = win2_3.index t (0 : Fin 2) * 512 + p.val; omega
    | ⟨1, _⟩ => show win2_0.index t (1 : Fin 2) * 4096 + 1 * k.val = k.val; omega
  · intro q k
    show V c main_v25 (((cfg2.win 1).blk t).view.emb (ix2 q k)) = V c main_v25 _
    refine congrArg (V c main_v25) (funext fun a => Fin.ext ?_)
    match a with
    | ⟨0, _⟩ => show win2_1.index t (0 : Fin 2) * 512 + 1 * q.val = win2_3.index t (1 : Fin 2) * 512 + q.val; omega
    | ⟨1, _⟩ => show win2_1.index t (1 : Fin 2) * 4096 + 1 * k.val = k.val; omega
  · intro q
    show V c main_arg6 (((cfg2.win 2).blk t).view.emb (ix1 q)) = V c main_arg6 _
    refine congrArg (V c main_arg6) (funext fun a => Fin.ext ?_)
    match a with
    | ⟨0, _⟩ => show win2_2.index t (0 : Fin 1) * 512 + 1 * q.val = win2_3.index t (1 : Fin 2) * 512 + q.val; omega
  · refine congrArg (tanhLayer (xArr V c) (wArr V c) (bArr V c)) (funext fun a => Fin.ext ?_)
    match a with
    | ⟨0, _⟩ => show win2_3.index t (0 : Fin 2) * 512 + (j 0).val = win2_3.index t (0 : Fin 2) * 512 + 1 * (j 0).val; omega
    | ⟨1, _⟩ => show win2_3.index t (1 : Fin 2) * 512 + (j 1).val = win2_3.index t (1 : Fin 2) * 512 + 1 * (j 1).val; omega

/-- An index of the output array is in point `t`'s block iff each coordinate is in the block's range on its axis. -/
theorem mem_blk (t : Fin cfg2.N) (i : S16384x2048.Idx) :
    i ∈ ((cfg2.win 3).blk t).view.set ↔ ∀ a : Fin 2, win2_3.index t a * S512x512.size a ≤ (i a).val ∧ (i a).val < win2_3.index t a * S512x512.size a + S512x512.size a := by
  show i ∈ ((View.whole main_v29).slice (win2_3.rect t)).set ↔ _
  rw [View.set_slice_whole, Rect.mem_set_unit]
  exact Iff.rfl

/-- The output's blocks tile its array: index `(i₀, i₁)` lies in the block (`i₀ / 512`, `i₁ / 512`). -/
theorem cover (i : S16384x2048.Idx) : ∃ t : Fin cfg2.N, (cfg2.win 3).flush t = true ∧ i ∈ ((cfg2.win 3).blk t).view.set := by
  have hi0 : (i 0).val < 16384 := (i 0).isLt
  have hi1 : (i 1).val < 2048 := (i 1).isLt
  obtain ⟨t, ht⟩ := idx_onto ⟨(i 0).val / 512, by omega⟩ ⟨(i 1).val / 512, by omega⟩
  have q0 : win2_3.index t (0 : Fin 2) = (i 0).val / 512 := congrFun ht 0
  have q1 : win2_3.index t (1 : Fin 2) = (i 1).val / 512 := congrFun ht 1
  refine ⟨t, flush2_3 t, ?_⟩
  rw [mem_blk]
  intro a
  match a with
  | ⟨0, _⟩ => show win2_3.index t (0 : Fin 2) * 512 ≤ (i 0).val ∧ (i 0).val < win2_3.index t (0 : Fin 2) * 512 + 512; omega
  | ⟨1, _⟩ => show win2_3.index t (1 : Fin 2) * 512 ≤ (i 1).val ∧ (i 1).val < win2_3.index t (1 : Fin 2) * 512 + 512; omega

/-- THE OUTPUT ARRAY after the region: `tanhLayer` of the arrays the region is entered with. -/
theorem arr (c : Dev nD) : (dat2 V c).arrAt 3 cfg2.N = tanhLayer (xArr V c) (wArr V c) (bArr V c) :=
  (dat2 V c).arrAt_eq_of_cover 3 (tanhLayer (xArr V c) (wArr V c) (bArr V c)) (fun t _ => flushed V c t) cover

end Cert.KernelIdeal.Layer2

end
-- ==== Proof.Layer3.lean ====
/-
  Region 3 of the kernel program at the ideal instance: the last dense layer `[16384, 2048] × [1024, 2048]ᵀ + [1024]`,
  its output squared and each row scaled by that row's limiter, the column `lim : [16384, 1]`. The grid is 2 × 32
  points; each writes one 512 × 512 block of the result from the activation tile in the block's row position, the
  weight tile and the bias tile in its column position and the limiter tile in its row position. Proved here, whatever
  the arrays `V` the region is entered with: each tile the body stores is the matching tile of `Mlp.sqLayer` of the
  four whole arrays (`flushed`); the result's blocks tile the whole `[16384, 1024]` array (`cover`); so the region
  leaves the result array at `Mlp.sqLayer` of its inputs (`arr`).
-/
import proofs.«139544_j83064667505168_1_alg».proof.Proof.Gen.KernelIdeal.Frame
import proofs.«139544_j83064667505168_1_alg».proof.Proof.Spec

set_option maxRecDepth 16384

noncomputable section

namespace Cert.KernelIdeal.Layer3

open Cert.KernelIdeal Cert.KernelIdeal.Gen Cert.Mlp
open Idealize.ShloMosaic Idealize.ShloMosaic.TcCoe Idealize.ShloMosaic.ValueIdx Idealize.SL.Sem
open Idealize.ShloMosaic.Pipeline (Dat Cfg Window)

/-! ## The tile product's operand indices -/

theorem lhs_axis0 (i : S512x512.Idx) (q : dot_S512x2048_S2048x512_S512x512_1_0_0_1_n_n.contr.Idx) :
    (dot_S512x2048_S2048x512_S512x512_1_0_0_1_n_n.lhsIdx i q 0).val = (i 0).val := by
  unfold DotDims.lhsIdx
  rw [dif_neg (show ¬(0 : Fin S512x2048.rank) ∈ dot_S512x2048_S2048x512_S512x512_1_0_0_1_n_n.lhsBatch by decide), dif_pos (show (0 : Fin S512x2048.rank) ∈ dot_S512x2048_S2048x512_S512x512_1_0_0_1_n_n.lhsNonContracting by decide)]
  rfl
theorem lhs_axis1 (i : S512x512.Idx) (q : dot_S512x2048_S2048x512_S512x512_1_0_0_1_n_n.contr.Idx) :
    (dot_S512x2048_S2048x512_S512x512_1_0_0_1_n_n.lhsIdx i q 1).val = (q ⟨0, by decide⟩).val :=
  dot_S512x2048_S2048x512_S512x512_1_0_0_1_n_n.lhsIdx_val_of_single rfl i q
theorem rhs_axis0 (i : S512x512.Idx) (q : dot_S512x2048_S2048x512_S512x512_1_0_0_1_n_n.contr.Idx) :
    (dot_S512x2048_S2048x512_S512x512_1_0_0_1_n_n.rhsIdx i q 0).val = (q ⟨0, by decide⟩).val :=
  dot_S512x2048_S2048x512_S512x512_1_0_0_1_n_n.rhsIdx_val_of_single rfl i q
theorem rhs_axis1 (i : S512x512.Idx) (q : dot_S512x2048_S2048x512_S512x512_1_0_0_1_n_n.contr.Idx) :
    (dot_S512x2048_S2048x512_S512x512_1_0_0_1_n_n.rhsIdx i q 1).val = (i 1).val := by
  unfold DotDims.rhsIdx
  rw [dif_neg (show ¬(1 : Fin S2048x512.rank) ∈ dot_S512x2048_S2048x512_S512x512_1_0_0_1_n_n.rhsBatch by decide), dif_pos (show (1 : Fin S2048x512.rank) ∈ dot_S512x2048_S2048x512_S512x512_1_0_0_1_n_n.rhsNonContracting by decide)]
  rfl

/-! ## What the body stores, at an index of the tile -/

/-- The stored tile at `(p, q)`: the square of (row `p` of the activation tile against row `q` of the weight tile plus
    the bias at `q`), times the limiter tile at row `p`. -/
theorem pay_apply (x : Vec Ideal S512x2048 .bf16) (w : Vec Ideal S512x2048 .bf16) (b : Vec Ideal S512 .f32) (l : Vec Ideal S512x1 .f32)
    (p q : Fin 512) :
    k3_pay1 (F := Ideal) x w b l (ix2 p q)
      = (((∑ k : Fin 2048, x (ix2 p k) * w (ix2 q k)) + b (ix1 q)) * ((∑ k : Fin 2048, x (ix2 p k) * w (ix2 q k)) + b (ix1 q)))
        * l (ix2 p (0 : Fin 1)) := by
  have ha := tile_affine_apply (φ₁ := .bf16) (φ₂ := .bf16) dot_S512x2048_S2048x512_S512x512_1_0_0_1_n_n rfl rfl lhs_axis0 lhs_axis1 rhs_axis0 rhs_axis1
    shapeCasts_S512x2048_S512x2048 shapeCasts_S512x2048_S512x2048 transposes_S512x2048_p1_0_S2048x512 shapeCasts_S512_S1x512 broadcasts_S1x512_S512x512 x w b p q
  have hl : broadcastTo S512x512 (shapeCast S512x1 l shapeCasts_S512x1_S512x1) broadcasts_S512x1_S512x512 (ix2 p q) = l (ix2 p (0 : Fin 1)) :=
    (broadcastTo_a1_ab_apply _ broadcasts_S512x1_S512x512 p q).trans (congrFun (shapeCast_self l shapeCasts_S512x1_S512x1) _)
  unfold k3_pay1
  exact congrArg₂ (· * ·) (congrArg₂ (· * ·) ha ha) hl

/-- The same with the four tiles known as pieces of whole arrays: the activation tile is row block `r` of `X`, the
    weight tile row block `s` of `W`, the bias tile block `s` of `B`, the limiter tile row block `r` of `L`. Then the
    stored tile at `(p, q)` is `sqLayer X W B L` at `(512 r + p, 512 s + q)`. -/
theorem tile_eq (x : Vec Ideal S512x2048 .bf16) (w : Vec Ideal S512x2048 .bf16) (b : Vec Ideal S512 .f32) (l : Vec Ideal S512x1 .f32)
    (X : S16384x2048.Idx → EReal) (W : S1024x2048.Idx → EReal) (B : S1024.Idx → EReal) (L : S16384x1.Idx → EReal)
    (r s : ℕ) (hr : r ≤ 31) (hs : s ≤ 1)
    (hx : ∀ (p : Fin 512) (k : Fin 2048), x (ix2 p k) = X (ix2 ⟨r * 512 + p.val, by omega⟩ k))
    (hw : ∀ (q : Fin 512) (k : Fin 2048), w (ix2 q k) = W (ix2 ⟨s * 512 + q.val, by omega⟩ k))
    (hb : ∀ q : Fin 512, b (ix1 q) = B (ix1 ⟨s * 512 + q.val, by omega⟩))
    (hl : ∀ p : Fin 512, l (ix2 p (0 : Fin 1)) = L (ix2 ⟨r * 512 + p.val, by omega⟩ (0 : Fin 1))) (p q : Fin 512) :
    k3_pay1 (F := Ideal) x w b l (ix2 p q) = sqLayer X W B L (ix2 ⟨r * 512 + p.val, by omega⟩ ⟨s * 512 + q.val, by omega⟩) := by
  have hd : (∑ k : Fin 2048, x (ix2 p k) * w (ix2 q k)) + b (ix1 q)
      = dense X W B (ix2 ⟨r * 512 + p.val, by omega⟩ ⟨s * 512 + q.val, by omega⟩) := by
    rw [dense_ix2, hb]
    exact congrArg (fun z => z + _) (Finset.sum_congr rfl fun k _ => by rw [hx, hw])
  rw [pay_apply, hd, hl]
  rfl

/-! ## The grid -/

theorem hz2 : (![0, 0] : Fin 2 → Nat) = fun _ => 0 := funext fun a => by fin_cases a <;> rfl
theorem hz1 : (![0] : Fin 1 → Nat) = fun _ => 0 := funext fun a => by fin_cases a; rfl

/-- The printed index maps, decided over the grid: the activation and limiter windows move with the result's row
    block, the weight and bias windows with its column block, and the block indices stay in range. -/
theorem idx_facts : ∀ t : Fin cfg3.N, win3_0.index t (0 : Fin 2) = win3_4.index t (0 : Fin 2)
    ∧ win3_0.index t (1 : Fin 2) = 0
    ∧ win3_1.index t (0 : Fin 2) = win3_4.index t (1 : Fin 2)
    ∧ win3_1.index t (1 : Fin 2) = 0
    ∧ win3_2.index t (0 : Fin 1) = win3_4.index t (1 : Fin 2)
    ∧ win3_3.index t (0 : Fin 2) = win3_4.index t (0 : Fin 2)
    ∧ win3_3.index t (1 : Fin 2) = 0
    ∧ win3_4.index t (0 : Fin 2) ≤ 31 ∧ win3_4.index t (1 : Fin 2) ≤ 1 :=
  (by decide +kernel : ∀ t : Fin grid3.N, _)

/-- Every (row block, column block) of the result is some point's. -/
theorem idx_onto : ∀ (q0 : Fin 32) (q1 : Fin 2), ∃ t : Fin cfg3.N, win3_4.index t = ![q0.val, q1.val] :=
  (by decide +kernel : ∀ (q0 : Fin 32) (q1 : Fin 2), ∃ t : Fin grid3.N, win3_4.index t = ![q0.val, q1.val])

variable (V : (c : Dev nD) → (b : Ref sig .tc) → Buf (Elt Ideal) ((c : Thread nD τ).loc b))

/-- The region's four input arrays, as arrays of extended reals. -/
abbrev xArr (c : Dev nD) : S16384x2048.Idx → EReal := V c main_v29
abbrev wArr (c : Dev nD) : S1024x2048.Idx → EReal := V c main_v26
abbrev bArr (c : Dev nD) : S1024.Idx → EReal := V c main_arg8
abbrev lArr (c : Dev nD) : S16384x1.Idx → EReal := V c main_v21

/-- WHAT POINT `t` WRITES BACK is block `t` of `sqLayer` of the arrays the region is entered with. -/
theorem flushed (c : Dev nD) (t : Fin cfg3.N) :
    (dat3 V c).flushed 4 t = ((cfg3.win 4).blk t).view.read (Elt Ideal) (sqLayer (xArr V c) (wArr V c) (bArr V c) (lArr V c)) := by
  show (cfg3.win 4).cut (grid3.coords t) ((dat3 V c).after 4 t) = _
  rw [after3_4]
  unfold out3_4
  rw [View.canon_unit_zero hz2]
  simp only [View.ld_unit_zero (S := S512x2048) hz2, View.ld_unit_zero (S := S512) hz1, View.ld_unit_zero (S := S512x1) hz2]
  obtain ⟨e0, e1, e2, e3, e4, e5, e6, e7, e8⟩ := idx_facts t
  funext j
  show k3_pay1 (F := Ideal) (iblk3 V c 0 t) (iblk3 V c 1 t) (iblk3 V c 2 t) (iblk3 V c 3 t) (ix2 (j 0) (j 1))
    = sqLayer (xArr V c) (wArr V c) (bArr V c) (lArr V c) (((cfg3.win 4).blk t).view.emb j)
  refine (tile_eq (iblk3 V c 0 t) (iblk3 V c 1 t) (iblk3 V c 2 t) (iblk3 V c 3 t) (xArr V c) (wArr V c) (bArr V c) (lArr V c)
    (win3_4.index t (0 : Fin 2)) (win3_4.index t (1 : Fin 2)) e7 e8 ?_ ?_ ?_ ?_ (j 0) (j 1)).trans ?_
  · intro p k
    show V c main_v29 (((cfg3.win 0).blk t).view.emb (ix2 p k)) = V c main_v29 _
    refine congrArg (V c main_v29) (funext fun a => Fin.ext ?_)
    match a with
    | ⟨0, _⟩ => show win3_0.index t (0 : Fin 2) * 512 + 1 * p.val = win3_4.index t (0 : Fin 2) * 512 + p.val; omega
    | ⟨1, _⟩ => show win3_0.index t (1 : Fin 2) * 2048 + 1 * k.val = k.val; omega
  · intro q k
    show V c main_v26 (((cfg3.win 1).blk t).view.emb (ix2 q k)) = V c main_v26 _
    refine congrArg (V c main_v26) (funext fun a => Fin.ext ?_)
    match a with
    | ⟨0, _⟩ => show win3_1.index t (0 : Fin 2) * 512 + 1 * q.val = win3_4.index t (1 : Fin 2) * 512 + q.val; omega
    | ⟨1, _⟩ => show win3_1.index t (1 : Fin 2) * 2048 + 1 * k.val = k.val; omega
  · intro q
    show V c main_arg8 (((cfg3.win 2).blk t).view.emb (ix1 q)) = V c main_arg8 _
    refine congrArg (V c main_arg8) (funext fun a => Fin.ext ?_)
    match a with
    | ⟨0, _⟩ => show win3_2.index t (0 : Fin 1) * 512 + 1 * q.val = win3_4.index t (1 : Fin 2) * 512 + q.val; omega
  · intro p
    show V c main_v21 (((cfg3.win 3).blk t).view.emb (ix2 p (0 : Fin 1))) = V c main_v21 _
    refine congrArg (V c main_v21) (funext fun a => Fin.ext ?_)
    match a with
    | ⟨0, _⟩ => show win3_3.index t (0 : Fin 2) * 512 + 1 * p.val = win3_4.index t (0 : Fin 2) * 512 + p.val; omega
    | ⟨1, _⟩ => show win3_3.index t (1 : Fin 2) * 1 + 1 * 0 = 0; omega
  · refine congrArg (sqLayer (xArr V c) (wArr V c) (bArr V c) (lArr V c)) (funext fun a => Fin.ext ?_)
    match a with
    | ⟨0, _⟩ => show win3_4.index t (0 : Fin 2) * 512 + (j 0).val = win3_4.index t (0 : Fin 2) * 512 + 1 * (j 0).val; omega
    | ⟨1, _⟩ => show win3_4.index t (1 : Fin 2) * 512 + (j 1).val = win3_4.index t (1 : Fin 2) * 512 + 1 * (j 1).val; omega

/-- An index of the result array is in point `t`'s block iff each coordinate is in the block's range on its axis. -/
theorem mem_blk (t : Fin cfg3.N) (i : S16384x1024.Idx) :
    i ∈ ((cfg3.win 4).blk t).view.set ↔ ∀ a : Fin 2, win3_4.index t a * S512x512.size a ≤ (i a).val ∧ (i a).val < win3_4.index t a * S512x512.size a + S512x512.size a := by
  show i ∈ ((View.whole main_v30).slice (win3_4.rect t)).set ↔ _
  rw [View.set_slice_whole, Rect.mem_set_unit]
  exact Iff.rfl

/-- The result's blocks tile its array: index `(i₀, i₁)` lies in the block (`i₀ / 512`, `i₁ / 512`). -/
theorem cover (i : S16384x1024.Idx) : ∃ t : Fin cfg3.N, (cfg3.win 4).flush t = true ∧ i ∈ ((cfg3.win 4).blk t).view.set := by
  have hi0 : (i 0).val < 16384 := (i 0).isLt
  have hi1 : (i 1).val < 1024 := (i 1).isLt
  obtain ⟨t, ht⟩ := idx_onto ⟨(i 0).val / 512, by omega⟩ ⟨(i 1).val / 512, by omega⟩
  have q0 : win3_4.index t (0 : Fin 2) = (i 0).val / 512 := congrFun ht 0
  have q1 : win3_4.index t (1 : Fin 2) = (i 1).val / 512 := congrFun ht 1
  refine ⟨t, flush3_4 t, ?_⟩
  rw [mem_blk]
  intro a
  match a with
  | ⟨0, _⟩ => show win3_4.index t (0 : Fin 2) * 512 ≤ (i 0).val ∧ (i 0).val < win3_4.index t (0 : Fin 2) * 512 + 512; omega
  | ⟨1, _⟩ => show win3_4.index t (1 : Fin 2) * 512 ≤ (i 1).val ∧ (i 1).val < win3_4.index t (1 : Fin 2) * 512 + 512; omega

/-- THE RESULT ARRAY after the region: `sqLayer` of the arrays the region is entered with. -/
theorem arr (c : Dev nD) : (dat3 V c).arrAt 4 cfg3.N = sqLayer (xArr V c) (wArr V c) (bArr V c) (lArr V c) :=
  (dat3 V c).arrAt_eq_of_cover 4 (sqLayer (xArr V c) (wArr V c) (bArr V c) (lArr V c)) (fun t _ => flushed V c t) cover

end Cert.KernelIdeal.Layer3

end
-- ==== Proof.KernelValue.lean ====
/-
  The idealized kernel program's result as ONE function of its nine arguments. The run (`Result.run_result`) leaves
  the result array at the last boundary's contents `W13 … main_v30`; read back through the four regions, each at
  `Mlp.tanhLayer` / `Mlp.sqLayer` of the arrays it is entered with (`Layer0.arr` … `Layer3.arr`), and through the
  host operations before them — the narrowing of the activations and of the four weight matrices to bf16, the identity
  on the extended reals, and the limiter column, the reference's own stage `val_main_v21` of the first argument — it is
  `sqLayer (tanhLayer (tanhLayer (tanhLayer x W1 b1) W2 b2) W3 b3) W4 b4 (lim x)`.
-/
import proofs.«139544_j83064667505168_1_alg».proof.Proof.Layer0
import proofs.«139544_j83064667505168_1_alg».proof.Proof.Layer1
import proofs.«139544_j83064667505168_1_alg».proof.Proof.Layer2
import proofs.«139544_j83064667505168_1_alg».proof.Proof.Layer3
import proofs.«139544_j83064667505168_1_alg».proof.Proof.Gen.ReferenceIdeal.Read
import Idealize.ShloMosaic.Lib.StableHlo.Run

set_option maxRecDepth 16384

noncomputable section

namespace Cert.KernelIdeal.Network

open Cert.KernelIdeal Cert.KernelIdeal.Gen Cert.Mlp
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## The host operations' results, as region 0 finds them -/

/-- The activations narrowed to bf16 are the activations. -/
theorem v22_eq (c : Dev nD) : (W9 m ρ c (Proc.devRef .tc main_v22) : S16384x1024.Idx → EReal) = m ((c : Thread nD τ).loc main_arg0) := by
  after_results; rfl
theorem v23_eq (c : Dev nD) : (W9 m ρ c (Proc.devRef .tc main_v23) : S2048x1024.Idx → EReal) = m ((c : Thread nD τ).loc main_arg1) := by
  after_results; rfl
theorem v24_eq (c : Dev nD) : (W9 m ρ c (Proc.devRef .tc main_v24) : S4096x2048.Idx → EReal) = m ((c : Thread nD τ).loc main_arg3) := by
  after_results; rfl
theorem v25_eq (c : Dev nD) : (W9 m ρ c (Proc.devRef .tc main_v25) : S2048x4096.Idx → EReal) = m ((c : Thread nD τ).loc main_arg5) := by
  after_results; rfl
theorem v26_eq (c : Dev nD) : (W9 m ρ c (Proc.devRef .tc main_v26) : S1024x2048.Idx → EReal) = m ((c : Thread nD τ).loc main_arg7) := by
  after_results; rfl

set_option maxHeartbeats 8000000 in
/-- The limiter column is the reference's stage of the same name, of the first argument: the two programs compute it
    by the same host operations. -/
theorem v21_eq (c : Dev nD) : (W9 m ρ c (Proc.devRef .tc main_v21) : S16384x1.Idx → EReal)
    = Cert.ReferenceIdeal.Read.val_main_v21 (F := Ideal) (m ((c : Thread nD τ).loc main_arg0)) := by
  after_results_simp
  unfold Cert.ReferenceIdeal.Read.val_main_v21 Cert.ReferenceIdeal.Read.val_main_v20 Cert.ReferenceIdeal.Read.val_main_call3_v1
    Cert.ReferenceIdeal.Read.val_main_call3_v0 Cert.ReferenceIdeal.Read.val_main_cst_4 Cert.ReferenceIdeal.Read.val_main_v19
    Cert.ReferenceIdeal.Read.val_main_v18 Cert.ReferenceIdeal.Read.val_main_call2_v1 Cert.ReferenceIdeal.Read.val_main_call2_v0
    Cert.ReferenceIdeal.Read.val_main_cst_3 Cert.ReferenceIdeal.Read.val_main_v17 Cert.ReferenceIdeal.Read.val_main_v16
    Cert.ReferenceIdeal.Read.val_main_v15 Cert.ReferenceIdeal.Read.val_main_cst_2 Cert.ReferenceIdeal.Read.val_main_v14
    Cert.ReferenceIdeal.Read.val_main_v13 Cert.ReferenceIdeal.Read.val_main_call1_v0 Cert.ReferenceIdeal.Read.val_main_call1_cst
    Cert.ReferenceIdeal.Read.val_main_v12 Cert.ReferenceIdeal.Read.val_main_v11 Cert.ReferenceIdeal.Read.val_main_v10
    Cert.ReferenceIdeal.Read.val_main_cst_1 Cert.ReferenceIdeal.Read.val_main_v9 Cert.ReferenceIdeal.Read.val_main_call0_v0
    Cert.ReferenceIdeal.Read.val_main_call0_cst Cert.ReferenceIdeal.Read.val_main_v8 Cert.ReferenceIdeal.Read.val_main_v7
    Cert.ReferenceIdeal.Read.val_main_v6 Cert.ReferenceIdeal.Read.val_main_cst_0 Cert.ReferenceIdeal.Read.val_main_v5
    Cert.ReferenceIdeal.Read.val_main_v4 Cert.ReferenceIdeal.Read.val_main_cst Cert.ReferenceIdeal.Read.val_main_v3
    Cert.ReferenceIdeal.Read.val_main_v2 Cert.ReferenceIdeal.Read.val_main_v1 Cert.ReferenceIdeal.Read.val_main_v0
  rfl

/-! ## An argument array at each region's entry is the launch's -/

theorem arg2_at9 (c : Dev nD) : W9 m ρ c (Proc.devRef .tc main_arg2) = m ((c : Thread nD τ).loc main_arg2) := by
  after_results
theorem arg4_at10 (c : Dev nD) : W10 m ρ c (Proc.devRef .tc main_arg4) = m ((c : Thread nD τ).loc main_arg4) :=
  (W10_of_ne m ρ c main_arg4 (by decide)).trans (by after_results)
theorem arg6_at11 (c : Dev nD) : W11 m ρ c (Proc.devRef .tc main_arg6) = m ((c : Thread nD τ).loc main_arg6) :=
  (W11_of_ne m ρ c main_arg6 (by decide)).trans ((W10_of_ne m ρ c main_arg6 (by decide)).trans (by after_results))
theorem arg8_at12 (c : Dev nD) : W12 m ρ c (Proc.devRef .tc main_arg8) = m ((c : Thread nD τ).loc main_arg8) :=
  (W12_of_ne m ρ c main_arg8 (by decide)).trans ((W11_of_ne m ρ c main_arg8 (by decide)).trans
    ((W10_of_ne m ρ c main_arg8 (by decide)).trans (by after_results)))

/-! ## The regions, one after the other -/

/-- After region 0: the first hidden layer. -/
theorem h1_eq (c : Dev nD) : (W10 m ρ c (Proc.devRef .tc main_v27) : S16384x2048.Idx → EReal)
    = tanhLayer (m ((c : Thread nD τ).loc main_arg0)) (m ((c : Thread nD τ).loc main_arg1)) (m ((c : Thread nD τ).loc main_arg2)) := by
  refine ((W10_arr m ρ c 3).trans (Layer0.arr (V9 m ρ) c)).trans ?_
  have ex : Layer0.xArr (V9 m ρ) c = m ((c : Thread nD τ).loc main_arg0) := v22_eq m ρ c
  have ew : Layer0.wArr (V9 m ρ) c = m ((c : Thread nD τ).loc main_arg1) := v23_eq m ρ c
  have eb : Layer0.bArr (V9 m ρ) c = m ((c : Thread nD τ).loc main_arg2) := arg2_at9 m ρ c
  rw [ex, ew, eb]

/-- After region 1: the second hidden layer. -/
theorem h2_eq (c : Dev nD) : (W11 m ρ c (Proc.devRef .tc main_v28) : S16384x4096.Idx → EReal)
    = tanhLayer (tanhLayer (m ((c : Thread nD τ).loc main_arg0)) (m ((c : Thread nD τ).loc main_arg1)) (m ((c : Thread nD τ).loc main_arg2)))
        (m ((c : Thread nD τ).loc main_arg3)) (m ((c : Thread nD τ).loc main_arg4)) := by
  refine ((W11_arr m ρ c 3).trans (Layer1.arr (V10 m ρ) c)).trans ?_
  have ex : Layer1.xArr (V10 m ρ) c = _ := h1_eq m ρ c
  have ew : Layer1.wArr (V10 m ρ) c = m ((c : Thread nD τ).loc main_arg3) :=
    (W10_of_ne m ρ c main_v24 (by decide)).trans (v24_eq m ρ c)
  have eb : Layer1.bArr (V10 m ρ) c = m ((c : Thread nD τ).loc main_arg4) := arg4_at10 m ρ c
  rw [ex, ew, eb]

/-- After region 2: the third hidden layer. -/
theorem h3_eq (c : Dev nD) : (W12 m ρ c (Proc.devRef .tc main_v29) : S16384x2048.Idx → EReal)
    = tanhLayer (tanhLayer (tanhLayer (m ((c : Thread nD τ).loc main_arg0)) (m ((c : Thread nD τ).loc main_arg1)) (m ((c : Thread nD τ).loc main_arg2)))
        (m ((c : Thread nD τ).loc main_arg3)) (m ((c : Thread nD τ).loc main_arg4)))
        (m ((c : Thread nD τ).loc main_arg5)) (m ((c : Thread nD τ).loc main_arg6)) := by
  refine ((W12_arr m ρ c 3).trans (Layer2.arr (V11 m ρ) c)).trans ?_
  have ex : Layer2.xArr (V11 m ρ) c = _ := h2_eq m ρ c
  have ew : Layer2.wArr (V11 m ρ) c = m ((c : Thread nD τ).loc main_arg5) :=
    (W11_of_ne m ρ c main_v25 (by decide)).trans ((W10_of_ne m ρ c main_v25 (by decide)).trans (v25_eq m ρ c))
  have eb : Layer2.bArr (V11 m ρ) c = m ((c : Thread nD τ).loc main_arg6) := arg6_at11 m ρ c
  rw [ex, ew, eb]

/-- After region 3: THE RESULT, the whole network of the nine arguments. -/
theorem result_eq (c : Dev nD) : (W13 m ρ c (Proc.devRef .tc main_v30) : S16384x1024.Idx → EReal)
    = sqLayer (tanhLayer (tanhLayer (tanhLayer (m ((c : Thread nD τ).loc main_arg0)) (m ((c : Thread nD τ).loc main_arg1)) (m ((c : Thread nD τ).loc main_arg2)))
        (m ((c : Thread nD τ).loc main_arg3)) (m ((c : Thread nD τ).loc main_arg4)))
        (m ((c : Thread nD τ).loc main_arg5)) (m ((c : Thread nD τ).loc main_arg6)))
        (m ((c : Thread nD τ).loc main_arg7)) (m ((c : Thread nD τ).loc main_arg8))
        (Cert.ReferenceIdeal.Read.val_main_v21 (F := Ideal) (m ((c : Thread nD τ).loc main_arg0))) := by
  refine ((W13_arr m ρ c 4).trans (Layer3.arr (V12 m ρ) c)).trans ?_
  have ex : Layer3.xArr (V12 m ρ) c = _ := h3_eq m ρ c
  have ew : Layer3.wArr (V12 m ρ) c = m ((c : Thread nD τ).loc main_arg7) :=
    (W12_of_ne m ρ c main_v26 (by decide)).trans ((W11_of_ne m ρ c main_v26 (by decide)).trans
      ((W10_of_ne m ρ c main_v26 (by decide)).trans (v26_eq m ρ c)))
  have eb : Layer3.bArr (V12 m ρ) c = m ((c : Thread nD τ).loc main_arg8) := arg8_at12 m ρ c
  have el : Layer3.lArr (V12 m ρ) c = Cert.ReferenceIdeal.Read.val_main_v21 (F := Ideal) (m ((c : Thread nD τ).loc main_arg0)) :=
    (W12_of_ne m ρ c main_v21 (by decide)).trans ((W11_of_ne m ρ c main_v21 (by decide)).trans
      ((W10_of_ne m ρ c main_v21 (by decide)).trans (v21_eq m ρ c)))
  rw [ex, ew, eb, el]

end Cert.KernelIdeal.Network

end
-- ==== Proof.Reference.lean ====
/-
  The reference program at the ideal instance is the same network: each of its three `dot_general + bias + tanh`
  stretches is `Mlp.tanhLayer` of the stretch's input and that layer's weights and bias (the reference transposes
  the weights first and contracts axis 1 of the activations with axis 0 of the transposed weights: row against
  row), and its last stretch — the fourth dense layer, squared, times the limiter column broadcast along the rows —
  is `Mlp.sqLayer`. Each is read index by index from the generated one-operation lemmas; the limiter column stays
  the generated stage `val_main_v21` of the first argument, unopened.
-/
import proofs.«139544_j83064667505168_1_alg».proof.Proof.Gen.ReferenceIdeal.Read
import proofs.«139544_j83064667505168_1_alg».proof.Proof.Spec

set_option maxRecDepth 16384

noncomputable section

namespace Cert.ReferenceIdeal.Layers

open Cert.ReferenceIdeal Cert.ReferenceIdeal.Gen Cert.ReferenceIdeal.Read Cert.Mlp
open Idealize.ShloMosaic Idealize.ShloMosaic.TcCoe Idealize.ShloMosaic.ValueIdx Idealize.SL.Sem

/-- The first layer: `tanh (x · W1ᵀ + b1)`. -/
theorem layer1 (x0 : (⟨S16384x1024, .f32⟩ : BufTy).Contents (Elt Ideal)) (x1 : (⟨S2048x1024, .f32⟩ : BufTy).Contents (Elt Ideal))
    (x2 : (⟨S2048, .f32⟩ : BufTy).Contents (Elt Ideal)) :
    val_main_v27 (F := Ideal) x0 x1 x2 = tanhLayer x0 x1 x2 := by
  funext i
  obtain ⟨p, q, rfl⟩ : ∃ (p : Fin 16384) (q : Fin 2048), i = ix2 p q := ⟨i 0, i 1, eq_ix2 i⟩
  rw [val_main_v27_apply, val_main_v26_apply, val_main_v23_apply, val_main_v25_apply, val_main_v24_apply]
  simp only [val_main_v22_apply]
  have el : ∀ k : Fin 1024, lidx_main_v23 (ix2 p q) k = ix2 p k := fun k => funext fun a => Fin.ext (by
    match a with | ⟨0, _⟩ => rfl | ⟨1, _⟩ => rfl)
  have er : ∀ k : Fin 1024, idx_main_v22 (ridx_main_v23 (ix2 p q) k) = ix2 q k := fun k => funext fun a => Fin.ext (by
    match a with | ⟨0, _⟩ => rfl | ⟨1, _⟩ => rfl)
  have eb : idx_main_v24 (idx_main_v25 (ix2 p q)) = ix1 q := funext fun a => Fin.ext (by
    match a with | ⟨0, _⟩ => rfl)
  simp only [el, er, eb]
  rfl

/-- The second layer, of whatever the first left. -/
theorem layer2 (x0 : (⟨S16384x1024, .f32⟩ : BufTy).Contents (Elt Ideal)) (x1 : (⟨S2048x1024, .f32⟩ : BufTy).Contents (Elt Ideal))
    (x2 : (⟨S2048, .f32⟩ : BufTy).Contents (Elt Ideal)) (x3 : (⟨S4096x2048, .f32⟩ : BufTy).Contents (Elt Ideal))
    (x4 : (⟨S4096, .f32⟩ : BufTy).Contents (Elt Ideal)) :
    val_main_v33 (F := Ideal) x0 x1 x2 x3 x4 = tanhLayer (val_main_v27 (F := Ideal) x0 x1 x2) x3 x4 := by
  funext i
  obtain ⟨p, q, rfl⟩ : ∃ (p : Fin 16384) (q : Fin 4096), i = ix2 p q := ⟨i 0, i 1, eq_ix2 i⟩
  rw [val_main_v33_apply, val_main_v32_apply, val_main_v29_apply, val_main_v31_apply, val_main_v30_apply]
  simp only [val_main_v28_apply]
  have el : ∀ k : Fin 2048, lidx_main_v29 (ix2 p q) k = ix2 p k := fun k => funext fun a => Fin.ext (by
    match a with | ⟨0, _⟩ => rfl | ⟨1, _⟩ => rfl)
  have er : ∀ k : Fin 2048, idx_main_v28 (ridx_main_v29 (ix2 p q) k) = ix2 q k := fun k => funext fun a => Fin.ext (by
    match a with | ⟨0, _⟩ => rfl | ⟨1, _⟩ => rfl)
  have eb : idx_main_v30 (idx_main_v31 (ix2 p q)) = ix1 q := funext fun a => Fin.ext (by
    match a with | ⟨0, _⟩ => rfl)
  simp only [el, er, eb]
  rfl

/-- The third layer, of whatever the second left. -/
theorem layer3 (x0 : (⟨S16384x1024, .f32⟩ : BufTy).Contents (Elt Ideal)) (x1 : (⟨S2048x1024, .f32⟩ : BufTy).Contents (Elt Ideal))
    (x2 : (⟨S2048, .f32⟩ : BufTy).Contents (Elt Ideal)) (x3 : (⟨S4096x2048, .f32⟩ : BufTy).Contents (Elt Ideal))
    (x4 : (⟨S4096, .f32⟩ : BufTy).Contents (Elt Ideal)) (x5 : (⟨S2048x4096, .f32⟩ : BufTy).Contents (Elt Ideal))
    (x6 : (⟨S2048, .f32⟩ : BufTy).Contents (Elt Ideal)) :
    val_main_v39 (F := Ideal) x0 x1 x2 x3 x4 x5 x6 = tanhLayer (val_main_v33 (F := Ideal) x0 x1 x2 x3 x4) x5 x6 := by
  funext i
  obtain ⟨p, q, rfl⟩ : ∃ (p : Fin 16384) (q : Fin 2048), i = ix2 p q := ⟨i 0, i 1, eq_ix2 i⟩
  rw [val_main_v39_apply, val_main_v38_apply, val_main_v35_apply, val_main_v37_apply, val_main_v36_apply]
  simp only [val_main_v34_apply]
  have el : ∀ k : Fin 4096, lidx_main_v35 (ix2 p q) k = ix2 p k := fun k => funext fun a => Fin.ext (by
    match a with | ⟨0, _⟩ => rfl | ⟨1, _⟩ => rfl)
  have er : ∀ k : Fin 4096, idx_main_v34 (ridx_main_v35 (ix2 p q) k) = ix2 q k := fun k => funext fun a => Fin.ext (by
    match a with | ⟨0, _⟩ => rfl | ⟨1, _⟩ => rfl)
  have eb : idx_main_v36 (idx_main_v37 (ix2 p q)) = ix1 q := funext fun a => Fin.ext (by
    match a with | ⟨0, _⟩ => rfl)
  simp only [el, er, eb]
  rfl

/-- The last layer, of whatever the third left: squared, each row times the limiter of the first argument's row. -/
theorem layer4 (x0 : (⟨S16384x1024, .f32⟩ : BufTy).Contents (Elt Ideal)) (x1 : (⟨S2048x1024, .f32⟩ : BufTy).Contents (Elt Ideal))
    (x2 : (⟨S2048, .f32⟩ : BufTy).Contents (Elt Ideal)) (x3 : (⟨S4096x2048, .f32⟩ : BufTy).Contents (Elt Ideal))
    (x4 : (⟨S4096, .f32⟩ : BufTy).Contents (Elt Ideal)) (x5 : (⟨S2048x4096, .f32⟩ : BufTy).Contents (Elt Ideal))
    (x6 : (⟨S2048, .f32⟩ : BufTy).Contents (Elt Ideal)) (x7 : (⟨S1024x2048, .f32⟩ : BufTy).Contents (Elt Ideal))
    (x8 : (⟨S1024, .f32⟩ : BufTy).Contents (Elt Ideal)) :
    val_main_v47 (F := Ideal) x0 x1 x2 x3 x4 x5 x6 x7 x8
      = sqLayer (val_main_v39 (F := Ideal) x0 x1 x2 x3 x4 x5 x6) x7 x8 (val_main_v21 (F := Ideal) x0) := by
  funext i
  obtain ⟨p, q, rfl⟩ : ∃ (p : Fin 16384) (q : Fin 1024), i = ix2 p q := ⟨i 0, i 1, eq_ix2 i⟩
  rw [val_main_v47_apply, val_main_v45_apply, val_main_v44_apply, val_main_v41_apply, val_main_v43_apply, val_main_v42_apply,
    val_main_v46_apply]
  simp only [val_main_v40_apply]
  have el : ∀ k : Fin 2048, lidx_main_v41 (ix2 p q) k = ix2 p k := fun k => funext fun a => Fin.ext (by
    match a with | ⟨0, _⟩ => rfl | ⟨1, _⟩ => rfl)
  have er : ∀ k : Fin 2048, idx_main_v40 (ridx_main_v41 (ix2 p q) k) = ix2 q k := fun k => funext fun a => Fin.ext (by
    match a with | ⟨0, _⟩ => rfl | ⟨1, _⟩ => rfl)
  have eb : idx_main_v42 (idx_main_v43 (ix2 p q)) = ix1 q := funext fun a => Fin.ext (by
    match a with | ⟨0, _⟩ => rfl)
  have elim : idx_main_v46 (ix2 p q) = ix2 p (0 : Fin 1) := funext fun a => Fin.ext (by
    match a with | ⟨0, _⟩ => rfl | ⟨1, _⟩ => rfl)
  simp only [el, er, eb, elim]
  rfl

/-- The whole reference: three `tanh` layers and the squared, limited last one. -/
theorem network (x0 : (⟨S16384x1024, .f32⟩ : BufTy).Contents (Elt Ideal)) (x1 : (⟨S2048x1024, .f32⟩ : BufTy).Contents (Elt Ideal))
    (x2 : (⟨S2048, .f32⟩ : BufTy).Contents (Elt Ideal)) (x3 : (⟨S4096x2048, .f32⟩ : BufTy).Contents (Elt Ideal))
    (x4 : (⟨S4096, .f32⟩ : BufTy).Contents (Elt Ideal)) (x5 : (⟨S2048x4096, .f32⟩ : BufTy).Contents (Elt Ideal))
    (x6 : (⟨S2048, .f32⟩ : BufTy).Contents (Elt Ideal)) (x7 : (⟨S1024x2048, .f32⟩ : BufTy).Contents (Elt Ideal))
    (x8 : (⟨S1024, .f32⟩ : BufTy).Contents (Elt Ideal)) :
    val_main_v47 (F := Ideal) x0 x1 x2 x3 x4 x5 x6 x7 x8
      = sqLayer (tanhLayer (tanhLayer (tanhLayer x0 x1 x2) x3 x4) x5 x6) x7 x8 (val_main_v21 (F := Ideal) x0) := by
  rw [layer4, layer3, layer2, layer1]

end Cert.ReferenceIdeal.Layers

end
-- ==== Proof.lean ====
/-
  The certificate: a four-layer perceptron computed by four tiled Pallas calls equals its jnp reference over the
  extended reals.

  Both programs compute `out = (h₃ · W4ᵀ + b4)² · lim(x)` with `h₁ = tanh (x · W1ᵀ + b1)`, `h₂ = tanh (h₁ · W2ᵀ + b2)`,
  `h₃ = tanh (h₂ · W3ᵀ + b3)` and `lim(x)` a per-row limiter of the first two columns of `x`. The kernel narrows
  activations and weights to bf16 between the layers and tiles every product 512 × 512 with the whole contraction in
  one tile; at the ideal instance a change of format is the identity and a tile of a row-against-row product is the
  same sum as the whole product's entry, so no law of the extended reals beyond reading both sides index by index is
  needed — the two results are the same term `Mlp.sqLayer (Mlp.tanhLayer (Mlp.tanhLayer (Mlp.tanhLayer x W1 b1) W2 b2)
  W3 b3) W4 b4 (lim x)`, and the precondition (finite inputs) is never opened. The limiter is computed by the same
  host operations in both programs and is carried as the reference's stage, unopened.

  Modules: `Spec` (the layer functions and how a tile product reads at an index), `Layer0` … `Layer3` (what each
  kernel region leaves in its output array, from any entry contents), `KernelRun` (the kernel program's run with the
  result array named), `KernelValue` (the result read back through the four regions and the host operations),
  `Reference` (the reference's run is the same function). The three frames are the generated ones; the idealization
  pass rewrote nothing, so `preserves` is `True`.
-/
import proofs.«139544_j83064667505168_1_alg».proof.Defs
import proofs.«139544_j83064667505168_1_alg».proof.Proof.Gen.Kernel
import proofs.«139544_j83064667505168_1_alg».proof.Proof.Gen.Kernel.Skeleton
import proofs.«139544_j83064667505168_1_alg».proof.Proof.Gen.Kernel.Launch
import proofs.«139544_j83064667505168_1_alg».proof.Proof.Gen.Kernel.Points
import proofs.«139544_j83064667505168_1_alg».proof.Proof.Gen.Kernel.Frame
import proofs.«139544_j83064667505168_1_alg».proof.Proof.Gen.KernelIdeal
import proofs.«139544_j83064667505168_1_alg».proof.Proof.Gen.KernelIdeal.Skeleton
import proofs.«139544_j83064667505168_1_alg».proof.Proof.Gen.KernelIdeal.Launch
import proofs.«139544_j83064667505168_1_alg».proof.Proof.Gen.KernelIdeal.Points
import proofs.«139544_j83064667505168_1_alg».proof.Proof.Gen.KernelIdeal.Frame
import proofs.«139544_j83064667505168_1_alg».proof.Proof.Gen.ReferenceIdeal
import proofs.«139544_j83064667505168_1_alg».proof.Proof.Gen.Pre_finite_inputs
import proofs.«139544_j83064667505168_1_alg».proof.Proof.Gen.ReferenceIdeal.Run
import proofs.«139544_j83064667505168_1_alg».proof.Proof.Gen.ReferenceIdeal.Read
import proofs.«139544_j83064667505168_1_alg».proof.Proof.KernelRun
import proofs.«139544_j83064667505168_1_alg».proof.Proof.KernelValue
import proofs.«139544_j83064667505168_1_alg».proof.Proof.Reference
import Idealize.ShloMosaic.Adequacy
import Idealize.ShloMosaic.Init

noncomputable section

namespace Cert.Proof

open Idealize.ShloMosaic Idealize.SL.Sem Cert.Mlp

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization pass rewrote no operation. -/
theorem preserves : Cert.preserves_Kernel_KernelIdeal := trivial

/-- Both runs end with the result array at the same function of the nine arguments: the kernel's by its four regions
    read back (`Network.result_eq`), the reference's by its operations read index by index (`Layers.network`), the
    arguments agreeing by hypothesis. -/
theorem algebraic : Cert.algebraic_KernelIdeal_ReferenceIdeal := by
  intro m ρ m' ρ' _ hagree
  refine ⟨fun c => sqLayer (tanhLayer (tanhLayer (tanhLayer (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) (m ((c.tc : Thread Cert.KernelIdeal.nD Cert.KernelIdeal.τ).loc Cert.KernelIdeal.main_arg7)) (m ((c.tc : Thread Cert.KernelIdeal.nD Cert.KernelIdeal.τ).loc Cert.KernelIdeal.main_arg8))
      (Cert.ReferenceIdeal.Read.val_main_v21 (F := Ideal) (m ((c.tc : Thread Cert.KernelIdeal.nD Cert.KernelIdeal.τ).loc Cert.KernelIdeal.main_arg0))), ?_, ?_⟩
  · exact (θ_run Cert.KernelIdeal.defs _ _).mono
      (fun r h c => ⟨(h c).1.trans (Cert.KernelIdeal.Network.result_eq m ρ c), (h c).2⟩)
      (Cert.KernelIdeal.Result.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8⟩ := hagree c
    rw [Cert.ReferenceIdeal.Read.val_main_v47_eq, Cert.ReferenceIdeal.Layers.network, a0, a1, a2, a3, a4, a5, a6, a7, a8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
